-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x128 : Shape := ⟨2, ![10000, 128]⟩
abbrev S128x16 : Shape := ⟨2, ![128, 16]⟩
abbrev S16 : Shape := ⟨1, ![16]⟩
abbrev S16x128 : Shape := ⟨2, ![16, 128]⟩
abbrev S128 : Shape := ⟨1, ![128]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x128 : S_.BroadcastsInDim S16x128 (![] : Fin 0 → Fin S16x128.rank)
  reducesTo_S16x128_S_d0_1 : S16x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S16x128 .f32) (main_arg5 : FVec F S128 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x128 .f32 := Host.absf main_arg4
  let main_cst_6 : FVec F S_ .f32 := constant S_ .f32 0x7F800000#32
  let main_v20 : FVec F S16x128 .f32 := broadcastInDim S16x128 ![] bcast_S_S16x128 main_cst_6
  let main_v21 : IVec S16x128 1 := cmpf .olt main_v19 main_v20
  let main_c_7 : IVec S_ 1 := constantI S_ 1 1#1
  let main_v22 : IVec S_ 1 := (fun x v => Host.reduce IntOp.andi x v reducesTo_S16x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S10000x10000 .f32) (main_arg1 : FVec F S10000x128 .f32) (main_arg2 : FVec F S128x16 .f32) (main_arg3 : FVec F S16 .f32) (main_arg4 : FVec F S16x128 .f32) (main_arg5 : FVec F S128 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S128x16 .f32 := Host.absf main_arg2
  let main_cst_2 : FVec F S_ .f32 := constant S_ .f32 0x7F800000#32
  let main_v10 : FVec F S128x16 .f32 := broadcastInDim S128x16 ![] bcast_S_S128x16 main_cst_2
  let main_v11 : IVec S128x16 1 := cmpf .olt main_v9 main_v10
  let main_c_3 : IVec S_ 1 := constantI S_ 1 1#1
  let main_v12 : IVec S_ 1 := (fun x v => Host.reduce IntOp.andi x v reducesTo_S128x16_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_arg5 main_v13 main_v16
-- ==== Kernel.lean ====
abbrev S10000x10000 : Shape := ⟨2, ![10000, 10000]⟩
abbrev S10000x128 : Shape := ⟨2, ![10000, 128]⟩
abbrev S128x16 : Shape := ⟨2, ![128, 16]⟩
abbrev S16 : Shape := ⟨1, ![16]⟩
abbrev S16x128 : Shape := ⟨2, ![16, 128]⟩
abbrev S128 : Shape := ⟨1, ![128]⟩
abbrev S_ : Shape := ⟨0, ![]⟩
abbrev S128x32 : Shape := ⟨2, ![128, 32]⟩
abbrev S1 : Shape := ⟨1, ![1]⟩
abbrev S1x32 : Shape := ⟨2, ![1, 32]⟩
abbrev S2 : Shape := ⟨1, ![2]⟩
abbrev S32x128 : Shape := ⟨2, ![32, 128]⟩
abbrev S10000x32 : Shape := ⟨2, ![10000, 32]⟩
abbrev S400x10000 : Shape := ⟨2, ![400, 10000]⟩
abbrev S400x32 : Shape := ⟨2, ![400, 32]⟩
abbrev S400x128 : Shape := ⟨2, ![400, 128]⟩

abbrev nBuf : Space → Nat
  | .hbm => 30
  | .vmem => 15
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x16, .f32⟩
  | .hbm, ⟨3, _⟩ => ⟨S16, .f32⟩
  | .hbm, ⟨4, _⟩ => ⟨S16x128, .f32⟩
  | .hbm, ⟨5, _⟩ => ⟨S128, .f32⟩
  | .hbm, ⟨6, _⟩ => ⟨S_, .f32⟩
  | .hbm, ⟨7, _⟩ => ⟨S128x32, .f32⟩
  | .hbm, ⟨8, _⟩ => ⟨S_, .i32⟩
  | .hbm, ⟨9, _⟩ => ⟨S1, .i32⟩
  | .hbm, ⟨10, _⟩ => ⟨S128x32, .f32⟩
  | .hbm, ⟨11, _⟩ => ⟨S_, .f32⟩
  | .hbm, ⟨12, _⟩ => ⟨S1x32, .f32⟩
  | .hbm, ⟨13, _⟩ => ⟨S_, .i32⟩
  | .hbm, ⟨14, _⟩ => ⟨S1, .i32⟩
  | .hbm, ⟨15, _⟩ => ⟨S_, .i32⟩
  | .hbm, ⟨16, _⟩ => ⟨S1, .i32⟩
  | .hbm, ⟨17, _⟩ => ⟨S2, .i32⟩
  | .hbm, ⟨18, _⟩ => ⟨S1x32, .f32⟩
  | .hbm, ⟨19, _⟩ => ⟨S_, .f32⟩
  | .hbm, ⟨20, _⟩ => ⟨S32x128, .f32⟩
  | .hbm, ⟨21, _⟩ => ⟨S_, .i32⟩
  | .hbm, ⟨22, _⟩ => ⟨S1, .i32⟩
  | .hbm, ⟨23, _⟩ => ⟨S32x128, .f32⟩
  | .hbm, ⟨24, _⟩ => ⟨S_, .i32⟩
  | .hbm, ⟨25, _⟩ => ⟨S1, .i32⟩
  | .hbm, ⟨26, _⟩ => ⟨S32x128, .f32⟩
  | .hbm, ⟨27, _⟩ => ⟨S10000x32, .f32⟩
  | .hbm, ⟨28, _⟩ => ⟨S10000x32, .f32⟩
  | .hbm, ⟨29, _⟩ => ⟨S10000x128, .f32⟩
  | .local _ .vmem, ⟨0, _⟩ => ⟨S10000x128, .f32⟩
  | .local _ .vmem, ⟨1, _⟩ => ⟨S128x32, .f32⟩
  | .local _ .vmem, ⟨2, _⟩ => ⟨S1x32, .f32⟩
  | .local _ .vmem, ⟨3, _⟩ => ⟨S10000x32, .f32⟩
  | .local _ .vmem, ⟨4, _⟩ => ⟨S400x10000, .f32⟩
  | .local _ .vmem, ⟨5, _⟩ => ⟨S400x10000, .f32⟩
  | .local _ .vmem, ⟨6, _⟩ => ⟨S10000x32, .f32⟩
  | .local _ .vmem, ⟨7, _⟩ => ⟨S400x32, .f32⟩
  | .local _ .vmem, ⟨8, _⟩ => ⟨S400x32, .f32⟩
  | .local _ .vmem, ⟨9, _⟩ => ⟨S400x10000, .f32⟩
  | .local _ .vmem, ⟨10, _⟩ => ⟨S400x10000, .f32⟩
  | .local _ .vmem, ⟨11, _⟩ => ⟨S10000x32, .f32⟩
  | .local _ .vmem, ⟨12, _⟩ => ⟨S32x128, .f32⟩
  | .local _ .vmem, ⟨13, _⟩ => ⟨S400x128, .f32⟩
  | .local _ .vmem, ⟨14, _⟩ => ⟨S400x128, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_cst : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_v2 : Ref sig .tc := ⟨.hbm, 10, rfl⟩
abbrev main_call0_cst_0 : Ref sig .tc := ⟨.hbm, 11, rfl⟩
abbrev main_call0_v3 : Ref sig .tc := ⟨.hbm, 12, rfl⟩
abbrev main_call0_c_1 : Ref sig .tc := ⟨.hbm, 13, rfl⟩
abbrev main_call0_v4 : Ref sig .tc := ⟨.hbm, 14, rfl⟩
abbrev main_call0_c_2 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_cst_3 : Ref sig .tc := ⟨.hbm, 19, rfl⟩
abbrev main_call0_v8 : Ref sig .tc := ⟨.hbm, 20, rfl⟩
abbrev main_call0_c_4 : Ref sig .tc := ⟨.hbm, 21, rfl⟩
abbrev main_call0_v9 : Ref sig .tc := ⟨.hbm, 22, rfl⟩
abbrev main_call0_v10 : Ref sig .tc := ⟨.hbm, 23, rfl⟩
abbrev main_call0_c_5 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_v0 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg3_1 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem3_0 : DmaSem sig := 13
abbrev cc2_sem3_1 : DmaSem sig := 14

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S10000x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S32x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S400x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S128x32 : S_.BroadcastsInDim S128x32 (![] : Fin 0 → Fin S128x32.rank)
  bcast_S_S1 : S_.BroadcastsInDim S1 (![] : Fin 0 → Fin S1.rank)
  bcast_S_S1x32 : S_.BroadcastsInDim S1x32 (![] : Fin 0 → Fin S1x32.rank)
  concatenates_S1_S1_S2_d0 : Shape.Concatenates [S1, S1] S2 0
  bcast_S_S32x128 : S_.BroadcastsInDim S32x128 (![] : Fin 0 → Fin S32x128.rank)
  inb_S10000x128_S10000x128_0_0 : ∀ a, (![0, 0] : Fin 2 → Nat) a + S10000x128.size a ≤ S10000x128.size a
  h_S10000x128 : 0 < S10000x128.numel
  inb_S128x32_S128x32_0_0 : ∀ a, (![0, 0] : Fin 2 → Nat) a + S128x32.size a ≤ S128x32.size a
  h_S128x32 : 0 < S128x32.numel
  shapeCasts_S128x32_S128x32 : S128x32.ShapeCasts S128x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S10000x32_S10000x32_0_0 : ∀ a, (![0, 0] : Fin 2 → Nat) a + S10000x32.size a ≤ S10000x32.size a
  h_S10000x32 : 0 < S10000x32.numel
  inb_S400x10000_S400x10000_0_0 : ∀ a, (![0, 0] : Fin 2 → Nat) a + S400x10000.size a ≤ S400x10000.size a
  h_S400x10000 : 0 < S400x10000.numel
  shapeCasts_S10000x32_S10000x32 : S10000x32.ShapeCasts S10000x32
  iota_S400x32_d1_w32 : S400x32.Iotas .tc 32 [1]
  inb_S400x32_S400x32_0_0 : ∀ a, (![0, 0] : Fin 2 → Nat) a + S400x32.size a ≤ S400x32.size a
  h_S400x32 : 0 < S400x32.numel
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S400x128_S400x128_0_0 : ∀ a, (![0, 0] : Fin 2 → Nat) a + S400x128.size a ≤ S400x128.size a
  h_S400x128 : 0 < S400x128.numel
  scatter_S128x32_S1_S128x16_01_n_1_0_wf : ScatterDims.WF S128x32 S1 S128x16 [0, 1] [] [1] 0
  scatter_S1x32_S2_S16_0_0_01_0_wf : ScatterDims.WF S1x32 S2 S16 [0] [0] [0, 1] 0
  scatter_S32x128_S1_S16x128_01_n_0_0_wf : ScatterDims.WF S32x128 S1 S16x128 [0, 1] [] [0] 0
  scatter_S32x128_S1_S128_0_0_0_0_wf : ScatterDims.WF S32x128 S1 S128 [0] [0] [0] 0
  dot_S10000x128_S128x32_S10000x32_1_0_0_1_n_n_wf : DotDims.WF S10000x128 S128x32 S10000x32 [1] [0] [0] [1] [] []
  dot_S400x10000_S10000x32_S400x32_1_0_0_1_n_n_wf : DotDims.WF S400x10000 S10000x32 S400x32 [1] [0] [0] [1] [] []
  dot_S400x32_S32x128_S400x128_1_0_0_1_n_n_wf : DotDims.WF S400x32 S32x128 S400x128 [1] [0] [0] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x32.size a ≤ S10000x32.size a
  hwx1_1 : ∀ i : grid1.Coords, EltTy.bits .f32 = 32 ∨ (Rect.block (s := S10000x32) S10000x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x32.size a ≤ S10000x32.size a
  hwx1_2 : ∀ i : grid1.Coords, EltTy.bits .f32 = 32 ∨ (Rect.block (s := S10000x32) S400x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x32.size a ≤ S10000x32.size a
  hwx2_1 : ∀ i : grid2.Coords, EltTy.bits .f32 = 32 ∨ (Rect.block (s := S10000x32) S10000x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x128.size a ≤ S32x128.size a
  hwx2_2 : ∀ i : grid2.Coords, EltTy.bits .f32 = 32 ∨ (Rect.block (s := S32x128) S32x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S400x128.size a ≤ S10000x128.size a
  hwx2_3 : ∀ i : grid2.Coords, EltTy.bits .f32 = 32 ∨ (Rect.block (s := S10000x128) S400x128.size (cc2_transform_3 i) (hinb2_3 i)).WholeWords (EltTy.packing .f32)

variable [Facts₀]

def scatter_S128x32_S1_S128x16_01_n_1_0 : ScatterDims S128x32 S1 S128x16 where
  updateWindowDims := [0, 1]
  insertedWindowDims := []
  scatterDimsToOperandDims := [1]
  indexVectorDim := 0
  wf := scatter_S128x32_S1_S128x16_01_n_1_0_wf
def scatter_S1x32_S2_S16_0_0_01_0 : ScatterDims S1x32 S2 S16 where
  updateWindowDims := [0]
  insertedWindowDims := [0]
  scatterDimsToOperandDims := [0, 1]
  indexVectorDim := 0
  wf := scatter_S1x32_S2_S16_0_0_01_0_wf
def scatter_S32x128_S1_S16x128_01_n_0_0 : ScatterDims S32x128 S1 S16x128 where
  updateWindowDims := [0, 1]
  insertedWindowDims := []
  scatterDimsToOperandDims := [0]
  indexVectorDim := 0
  wf := scatter_S32x128_S1_S16x128_01_n_0_0_wf
def scatter_S32x128_S1_S128_0_0_0_0 : ScatterDims S32x128 S1 S128 where
  updateWindowDims := [0]
  insertedWindowDims := [0]
  scatterDimsToOperandDims := [0]
  indexVectorDim := 0
  wf := scatter_S32x128_S1_S128_0_0_0_0_wf
def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S400x10000_S10000x32_S400x32_1_0_0_1_n_n : DotDims S400x10000 S10000x32 S400x32 where
  lhsContracting := [1]
  rhsContracting := [0]
  lhsNonContracting := [0]
  rhsNonContracting := [1]
  lhsBatch := []
  rhsBatch := []
  wf := dot_S400x10000_S10000x32_S400x32_1_0_0_1_n_n_wf
def dot_S400x32_S32x128_S400x128_1_0_0_1_n_n : DotDims S400x32 S32x128 S400x128 where
  lhsContracting := [1]
  rhsContracting := [0]
  lhsNonContracting := [0]
  rhsNonContracting := [1]
  lhsBatch := []
  rhsBatch := []
  wf := dot_S400x32_S32x128_S400x128_1_0_0_1_n_n_wf

abbrev win0_0 : Pipeline.Window sig grid0 :=
  Pipeline.Window.whole (Memref.whole main_arg1) false false (stage0_0 0) (sem0_0 0) (Memref.isWhole_whole _) (hstage0_0 0)

abbrev win0_1 : Pipeline.Window sig grid0 :=
  Pipeline.Window.whole (Memref.whole main_call0_v2) false false (stage0_1 0) (sem0_1 0) (Memref.isWhole_whole _) (hstage0_1 0)

abbrev win0_2 : Pipeline.Window sig grid0 :=
  Pipeline.Window.whole (Memref.whole main_call0_v7) false false (stage0_2 0) (sem0_2 0) (Memref.isWhole_whole _) (hstage0_2 0)

abbrev win0_3 : Pipeline.Window sig grid0 :=
  Pipeline.Window.whole (Memref.whole main_call0_v13) true false (stage0_3 0) (sem0_3 0) (Memref.isWhole_whole _) (hstage0_3 0)

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v13) S10000x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v14) S400x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg0) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v14) S10000x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_call0_v12) S32x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v0) S400x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S10000x10000 : Shape := ⟨2, ![10000, 10000]⟩
abbrev S10000x128 : Shape := ⟨2, ![10000, 128]⟩
abbrev S128x16 : Shape := ⟨2, ![128, 16]⟩
abbrev S16 : Shape := ⟨1, ![16]⟩
abbrev S16x128 : Shape := ⟨2, ![16, 128]⟩
abbrev S128 : Shape := ⟨1, ![128]⟩
abbrev S10000x16 : Shape := ⟨2, ![10000, 16]⟩
abbrev S1x16 : Shape := ⟨2, ![1, 16]⟩
abbrev S_ : Shape := ⟨0, ![]⟩
abbrev S1x128 : Shape := ⟨2, ![1, 128]⟩

abbrev nBuf : Space → Nat
  | .hbm => 19
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x16, .f32⟩
  | .hbm, ⟨3, _⟩ => ⟨S16, .f32⟩
  | .hbm, ⟨4, _⟩ => ⟨S16x128, .f32⟩
  | .hbm, ⟨5, _⟩ => ⟨S128, .f32⟩
  | .hbm, ⟨6, _⟩ => ⟨S10000x16, .f32⟩
  | .hbm, ⟨7, _⟩ => ⟨S1x16, .f32⟩
  | .hbm, ⟨8, _⟩ => ⟨S10000x16, .f32⟩
  | .hbm, ⟨9, _⟩ => ⟨S10000x16, .f32⟩
  | .hbm, ⟨10, _⟩ => ⟨S10000x16, .f32⟩
  | .hbm, ⟨11, _⟩ => ⟨S_, .f32⟩
  | .hbm, ⟨12, _⟩ => ⟨S10000x16, .f32⟩
  | .hbm, ⟨13, _⟩ => ⟨S10000x16, .f32⟩
  | .hbm, ⟨14, _⟩ => ⟨S10000x128, .f32⟩
  | .hbm, ⟨15, _⟩ => ⟨S1x128, .f32⟩
  | .hbm, ⟨16, _⟩ => ⟨S10000x128, .f32⟩
  | .hbm, ⟨17, _⟩ => ⟨S10000x128, .f32⟩
  | .hbm, ⟨18, _⟩ => ⟨S10000x128, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]

class Facts₀ : Prop where
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  bcast_S_S10000x16 : S_.BroadcastsInDim S10000x16 (![] : Fin 0 → Fin S10000x16.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  dot_S10000x128_S128x16_S10000x16_1_0_0_1_n_n_wf : DotDims.WF S10000x128 S128x16 S10000x16 [1] [0] [0] [1] [] []
  dot_S10000x10000_S10000x16_S10000x16_1_0_0_1_n_n_wf : DotDims.WF S10000x10000 S10000x16 S10000x16 [1] [0] [0] [1] [] []
  dot_S10000x16_S16x128_S10000x128_1_0_0_1_n_n_wf : DotDims.WF S10000x16 S16x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf
def dot_S10000x16_S16x128_S10000x128_1_0_0_1_n_n : DotDims S10000x16 S16x128 S10000x128 where
  lhsContracting := [1]
  rhsContracting := [0]
  lhsNonContracting := [0]
  rhsNonContracting := [1]
  lhsBatch := []
  rhsBatch := []
  wf := dot_S10000x16_S16x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.Payload.lean ====
/-
  The three kernel bodies' arithmetic read at a coordinate, on the extended reals.
  A matrix product into a zero accumulator is the plain sum over the contracted axis; the first body adds a
  row vector broadcast down the rows; the second rectifies and overwrites column 16 by the constant one; the third
  multiplies twice.
-/
import proofs.«143129_g24318104830749_cont_sun_m_1374_4_alg».proof.Proof.Gen.KernelIdeal.Skeleton
import Idealize.ShloMosaic.Lib.Pipeline.Value
import Idealize.ShloMosaic.Lib.ValueIdx
import Idealize.ShloMosaic.PureOps.Ideal.Laws
import Idealize.ShloMosaic.Lib.IdealHost
import Idealize.ShloMosaic.Lib.StableHlo.Predicate

noncomputable section

open scoped BigOperators

namespace Cert.KernelIdeal.Payload

open Idealize.ShloMosaic Idealize.ShloMosaic.ValueIdx Cert.KernelIdeal Cert.KernelIdeal.Gen

/-! ## The contraction [10000, 128] × [128, 32] -/

theorem lhsA_0 (i : S10000x32.Idx) (q : dot_S10000x128_S128x32_S10000x32_1_0_0_1_n_n.contr.Idx) :
    (dot_S10000x128_S128x32_S10000x32_1_0_0_1_n_n.lhsIdx i q 0).val = (i 0).val := by
  unfold DotDims.lhsIdx
  rw [dif_neg (show ¬(0 : Fin S10000x128.rank) ∈ dot_S10000x128_S128x32_S10000x32_1_0_0_1_n_n.lhsBatch by decide), dif_pos (show (0 : Fin S10000x128.rank) ∈ dot_S10000x128_S128x32_S10000x32_1_0_0_1_n_n.lhsNonContracting by decide)]
  rfl
theorem lhsA_1 (i : S10000x32.Idx) (q : dot_S10000x128_S128x32_S10000x32_1_0_0_1_n_n.contr.Idx) :
    (dot_S10000x128_S128x32_S10000x32_1_0_0_1_n_n.lhsIdx i q 1).val = (q ⟨0, by decide⟩).val :=
  dot_S10000x128_S128x32_S10000x32_1_0_0_1_n_n.lhsIdx_val_of_single rfl i q
theorem rhsA_0 (i : S10000x32.Idx) (q : dot_S10000x128_S128x32_S10000x32_1_0_0_1_n_n.contr.Idx) :
    (dot_S10000x128_S128x32_S10000x32_1_0_0_1_n_n.rhsIdx i q 0).val = (q ⟨0, by decide⟩).val :=
  dot_S10000x128_S128x32_S10000x32_1_0_0_1_n_n.rhsIdx_val_of_single rfl i q
theorem rhsA_1 (i : S10000x32.Idx) (q : dot_S10000x128_S128x32_S10000x32_1_0_0_1_n_n.contr.Idx) :
    (dot_S10000x128_S128x32_S10000x32_1_0_0_1_n_n.rhsIdx i q 1).val = (i 1).val := by
  unfold DotDims.rhsIdx
  rw [dif_neg (show ¬(1 : Fin S128x32.rank) ∈ dot_S10000x128_S128x32_S10000x32_1_0_0_1_n_n.rhsBatch by decide), dif_pos (show (1 : Fin S128x32.rank) ∈ dot_S10000x128_S128x32_S10000x32_1_0_0_1_n_n.rhsNonContracting by decide)]
  rfl

/-- Entry (l, k) of a [10000, 128] by [128, 32] product into zero is the sum over the 128 contracted places. -/
theorem matmulA_apply (x : FVec Ideal S10000x128 .f32) (y : FVec Ideal S128x32 .f32) (l : Fin 10000) (k : Fin 32) :
    matmul dot_S10000x128_S128x32_S10000x32_1_0_0_1_n_n none x y (constant (F := Ideal) S10000x32 .f32 0x00000000#32) (ix2 l k)
      = ∑ d : Fin 128, x (ix2 l d) * y (ix2 d k) := by
  unfold matmul
  rw [Ideal.matmul_constant_zero_apply, ← Equiv.sum_comp (ValueIdx.contrEquiv1 dot_S10000x128_S128x32_S10000x32_1_0_0_1_n_n 128 rfl rfl).symm]
  refine Finset.sum_congr rfl fun d _ => ?_
  have hk := ValueIdx.contrEquiv1_symm_val dot_S10000x128_S128x32_S10000x32_1_0_0_1_n_n 128 rfl rfl d
  have el : dot_S10000x128_S128x32_S10000x32_1_0_0_1_n_n.lhsIdx (ix2 l k) ((ValueIdx.contrEquiv1 dot_S10000x128_S128x32_S10000x32_1_0_0_1_n_n 128 rfl rfl).symm d) = ix2 l d := funext fun a => Fin.ext (by
    match a with
    | ⟨0, _⟩ => exact lhsA_0 _ _
    | ⟨1, _⟩ => exact (lhsA_1 _ _).trans hk)
  have er : dot_S10000x128_S128x32_S10000x32_1_0_0_1_n_n.rhsIdx (ix2 l k) ((ValueIdx.contrEquiv1 dot_S10000x128_S128x32_S10000x32_1_0_0_1_n_n 128 rfl rfl).symm d) = ix2 d k := funext fun a => Fin.ext (by
    match a with
    | ⟨0, _⟩ => exact (rhsA_0 _ _).trans hk
    | ⟨1, _⟩ => exact rhsA_1 _ _)
  rw [el, er]

/-! ## The contraction [400, 10000] × [10000, 32] -/

theorem lhsB_0 (i : S400x32.Idx) (q : dot_S400x10000_S10000x32_S400x32_1_0_0_1_n_n.contr.Idx) :
    (dot_S400x10000_S10000x32_S400x32_1_0_0_1_n_n.lhsIdx i q 0).val = (i 0).val := by
  unfold DotDims.lhsIdx
  rw [dif_neg (show ¬(0 : Fin S400x10000.rank) ∈ dot_S400x10000_S10000x32_S400x32_1_0_0_1_n_n.lhsBatch by decide), dif_pos (show (0 : Fin S400x10000.rank) ∈ dot_S400x10000_S10000x32_S400x32_1_0_0_1_n_n.lhsNonContracting by decide)]
  rfl
theorem lhsB_1 (i : S400x32.Idx) (q : dot_S400x10000_S10000x32_S400x32_1_0_0_1_n_n.contr.Idx) :
    (dot_S400x10000_S10000x32_S400x32_1_0_0_1_n_n.lhsIdx i q 1).val = (q ⟨0, by decide⟩).val :=
  dot_S400x10000_S10000x32_S400x32_1_0_0_1_n_n.lhsIdx_val_of_single rfl i q
theorem rhsB_0 (i : S400x32.Idx) (q : dot_S400x10000_S10000x32_S400x32_1_0_0_1_n_n.contr.Idx) :
    (dot_S400x10000_S10000x32_S400x32_1_0_0_1_n_n.rhsIdx i q 0).val = (q ⟨0, by decide⟩).val :=
  dot_S400x10000_S10000x32_S400x32_1_0_0_1_n_n.rhsIdx_val_of_single rfl i q
theorem rhsB_1 (i : S400x32.Idx) (q : dot_S400x10000_S10000x32_S400x32_1_0_0_1_n_n.contr.Idx) :
    (dot_S400x10000_S10000x32_S400x32_1_0_0_1_n_n.rhsIdx i q 1).val = (i 1).val := by
  unfold DotDims.rhsIdx
  rw [dif_neg (show ¬(1 : Fin S10000x32.rank) ∈ dot_S400x10000_S10000x32_S400x32_1_0_0_1_n_n.rhsBatch by decide), dif_pos (show (1 : Fin S10000x32.rank) ∈ dot_S400x10000_S10000x32_S400x32_1_0_0_1_n_n.rhsNonContracting by decide)]
  rfl

/-- Entry (p, k) of a [400, 10000] by [10000, 32] product into zero is the sum over the 10000 contracted places. -/
theorem matmulB_apply (x : FVec Ideal S400x10000 .f32) (y : FVec Ideal S10000x32 .f32) (p : Fin 400) (k : Fin 32) :
    matmul dot_S400x10000_S10000x32_S400x32_1_0_0_1_n_n none x y (constant (F := Ideal) S400x32 .f32 0x00000000#32) (ix2 p k)
      = ∑ l : Fin 10000, x (ix2 p l) * y (ix2 l k) := by
  unfold matmul
  rw [Ideal.matmul_constant_zero_apply, ← Equiv.sum_comp (ValueIdx.contrEquiv1 dot_S400x10000_S10000x32_S400x32_1_0_0_1_n_n 10000 rfl rfl).symm]
  refine Finset.sum_congr rfl fun l _ => ?_
  have hk := ValueIdx.contrEquiv1_symm_val dot_S400x10000_S10000x32_S400x32_1_0_0_1_n_n 10000 rfl rfl l
  have el : dot_S400x10000_S10000x32_S400x32_1_0_0_1_n_n.lhsIdx (ix2 p k) ((ValueIdx.contrEquiv1 dot_S400x10000_S10000x32_S400x32_1_0_0_1_n_n 10000 rfl rfl).symm l) = ix2 p l := funext fun a => Fin.ext (by
    match a with
    | ⟨0, _⟩ => exact lhsB_0 _ _
    | ⟨1, _⟩ => exact (lhsB_1 _ _).trans hk)
  have er : dot_S400x10000_S10000x32_S400x32_1_0_0_1_n_n.rhsIdx (ix2 p k) ((ValueIdx.contrEquiv1 dot_S400x10000_S10000x32_S400x32_1_0_0_1_n_n 10000 rfl rfl).symm l) = ix2 l k := funext fun a => Fin.ext (by
    match a with
    | ⟨0, _⟩ => exact (rhsB_0 _ _).trans hk
    | ⟨1, _⟩ => exact rhsB_1 _ _)
  rw [el, er]

/-! ## The contraction [400, 32] × [32, 128] -/

theorem lhsC_0 (i : S400x128.Idx) (q : dot_S400x32_S32x128_S400x128_1_0_0_1_n_n.contr.Idx) :
    (dot_S400x32_S32x128_S400x128_1_0_0_1_n_n.lhsIdx i q 0).val = (i 0).val := by
  unfold DotDims.lhsIdx
  rw [dif_neg (show ¬(0 : Fin S400x32.rank) ∈ dot_S400x32_S32x128_S400x128_1_0_0_1_n_n.lhsBatch by decide), dif_pos (show (0 : Fin S400x32.rank) ∈ dot_S400x32_S32x128_S400x128_1_0_0_1_n_n.lhsNonContracting by decide)]
  rfl
theorem lhsC_1 (i : S400x128.Idx) (q : dot_S400x32_S32x128_S400x128_1_0_0_1_n_n.contr.Idx) :
    (dot_S400x32_S32x128_S400x128_1_0_0_1_n_n.lhsIdx i q 1).val = (q ⟨0, by decide⟩).val :=
  dot_S400x32_S32x128_S400x128_1_0_0_1_n_n.lhsIdx_val_of_single rfl i q
theorem rhsC_0 (i : S400x128.Idx) (q : dot_S400x32_S32x128_S400x128_1_0_0_1_n_n.contr.Idx) :
    (dot_S400x32_S32x128_S400x128_1_0_0_1_n_n.rhsIdx i q 0).val = (q ⟨0, by decide⟩).val :=
  dot_S400x32_S32x128_S400x128_1_0_0_1_n_n.rhsIdx_val_of_single rfl i q
theorem rhsC_1 (i : S400x128.Idx) (q : dot_S400x32_S32x128_S400x128_1_0_0_1_n_n.contr.Idx) :
    (dot_S400x32_S32x128_S400x128_1_0_0_1_n_n.rhsIdx i q 1).val = (i 1).val := by
  unfold DotDims.rhsIdx
  rw [dif_neg (show ¬(1 : Fin S32x128.rank) ∈ dot_S400x32_S32x128_S400x128_1_0_0_1_n_n.rhsBatch by decide), dif_pos (show (1 : Fin S32x128.rank) ∈ dot_S400x32_S32x128_S400x128_1_0_0_1_n_n.rhsNonContracting by decide)]
  rfl

/-- Entry (p, j) of a [400, 32] by [32, 128] product into zero is the sum over the 32 contracted places. -/
theorem matmulC_apply (x : FVec Ideal S400x32 .f32) (y : FVec Ideal S32x128 .f32) (p : Fin 400) (j : Fin 128) :
    matmul dot_S400x32_S32x128_S400x128_1_0_0_1_n_n none x y (constant (F := Ideal) S400x128 .f32 0x00000000#32) (ix2 p j)
      = ∑ k : Fin 32, x (ix2 p k) * y (ix2 k j) := by
  unfold matmul
  rw [Ideal.matmul_constant_zero_apply, ← Equiv.sum_comp (ValueIdx.contrEquiv1 dot_S400x32_S32x128_S400x128_1_0_0_1_n_n 32 rfl rfl).symm]
  refine Finset.sum_congr rfl fun k _ => ?_
  have hk := ValueIdx.contrEquiv1_symm_val dot_S400x32_S32x128_S400x128_1_0_0_1_n_n 32 rfl rfl k
  have el : dot_S400x32_S32x128_S400x128_1_0_0_1_n_n.lhsIdx (ix2 p j) ((ValueIdx.contrEquiv1 dot_S400x32_S32x128_S400x128_1_0_0_1_n_n 32 rfl rfl).symm k) = ix2 p k := funext fun a => Fin.ext (by
    match a with
    | ⟨0, _⟩ => exact lhsC_0 _ _
    | ⟨1, _⟩ => exact (lhsC_1 _ _).trans hk)
  have er : dot_S400x32_S32x128_S400x128_1_0_0_1_n_n.rhsIdx (ix2 p j) ((ValueIdx.contrEquiv1 dot_S400x32_S32x128_S400x128_1_0_0_1_n_n 32 rfl rfl).symm k) = ix2 k j := funext fun a => Fin.ext (by
    match a with
    | ⟨0, _⟩ => exact (rhsC_0 _ _).trans hk
    | ⟨1, _⟩ => exact rhsC_1 _ _)
  rw [el, er]

/-! ## The three bodies -/

/-- The first body at (l, k): row l of the first operand against column k of the second, plus entry k of the row vector. -/
theorem pay0_apply (x0 : Vec Ideal S10000x128 .f32) (x1 : Vec Ideal S128x32 .f32) (x2 : Vec Ideal S1x32 .f32)
    (l : Fin 10000) (k : Fin 32) :
    k0_pay1 (F := Ideal) x0 x1 x2 (ix2 l k) = (∑ d : Fin 128, x0 (ix2 l d) * x1 (ix2 d k)) + x2 (ix2 (0 : Fin 1) k) := by
  unfold k0_pay1
  rw [addf_apply, shapeCast_self, shapeCast_self, matmulA_apply]
  congr 1
  exact broadcastTo_apply x2 broadcasts_S1x32_S10000x32 (ix2 l k) (ix2 (0 : Fin 1) k) (fun a => match a with
    | ⟨0, _⟩ => by show 0 = if (1 : Nat) = 1 then 0 else l.val; rw [if_pos rfl]
    | ⟨1, _⟩ => by show k.val = if (32 : Nat) = 1 then 0 else k.val; rw [if_neg (by decide)])

/-- The second body at (p, k): the constant one in column 16, elsewhere the rectified contraction. -/
theorem pay1_apply (x0 : Vec Ideal S400x10000 .f32) (x1 : Vec Ideal S10000x32 .f32) (p : Fin 400) (k : Fin 32) :
    k1_pay1 (F := Ideal) x0 x1 (ix2 p k)
      = if k.val = 16 then 1 else max (∑ l : Fin 10000, x0 (ix2 p l) * x1 (ix2 l k)) 0 := by
  unfold k1_pay1
  rw [select_apply, maximumf_apply, shapeCast_self, matmulB_apply, broadcast_apply, broadcast_apply, Ideal.ofBits_def,
    Ideal.ofBits_def, Ideal.ofBits_one_f32, Ideal.ofBits_zero_f32]
  show Scalar.select (IntOp.cmpi .eq (iota .tc S400x32 32 [1] iota_S400x32_d1_w32 (ix2 p k)) 16#32) 1 _ = _
  rw [iota_single_apply]
  show Scalar.select (IntOp.cmpi .eq (BitVec.ofNat 32 k.val) 16#32) 1 _ = _
  by_cases hk : k.val = 16
  · rw [if_pos hk, StableHlo.Predicate.cmpi_eq_iff.mpr (by rw [hk]), select_one]
  · have hne : ¬ IntOp.cmpi .eq (BitVec.ofNat 32 k.val) 16#32 = 1#1 := fun h => hk (by
      have h' := congrArg BitVec.toNat (StableHlo.Predicate.cmpi_eq_iff.mp h)
      simp only [BitVec.toNat_ofNat] at h'
      have := k.isLt
      omega)
    rw [if_neg hk, eq_zero_of_ne_one hne, select_zero]

/-- The third body at (p, j): the contraction over the 10000 rows first, then over the 32 padded columns. -/
theorem pay2_apply (x0 : Vec Ideal S400x10000 .f32) (x1 : Vec Ideal S10000x32 .f32) (x2 : Vec Ideal S32x128 .f32)
    (p : Fin 400) (j : Fin 128) :
    k2_pay1 (F := Ideal) x0 x1 x2 (ix2 p j)
      = ∑ k : Fin 32, (∑ l : Fin 10000, x0 (ix2 p l) * x1 (ix2 l k)) * x2 (ix2 k j) := by
  unfold k2_pay1
  rw [shapeCast_self, shapeCast_self, matmulC_apply]
  refine Finset.sum_congr rfl fun k _ => ?_
  rw [matmulB_apply]

end Cert.KernelIdeal.Payload

end
-- ==== Proof.RegionValue.lean ====
/-
  What each of the three regions leaves in its output array, as one function of the arrays the region finds.
  Region 0 runs once over whole arrays. Regions 1 and 2 walk the 10000 rows in 25 blocks of 400: at point t the
  adjacency window is rows 400·t … 400·t + 399, the other inputs are whole, and the output block is the same rows of the
  output array; the 25 blocks tile it, so the array ends holding, row by row, what the body computes from that row of
  the adjacency and the whole of the other inputs.
-/
import proofs.«143129_g24318104830749_cont_sun_m_1374_4_alg».proof.Proof.Gen.KernelIdeal.Frame
import proofs.«143129_g24318104830749_cont_sun_m_1374_4_alg».proof.Proof.Payload
import Idealize.ShloMosaic.Lib.Pipeline.Value

set_option maxRecDepth 16384

noncomputable section

open scoped BigOperators

namespace Cert.KernelIdeal.RegionValue

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Payload

variable (V : (c : Dev nD) → (b : Ref sig .tc) → Buf (Elt Ideal) ((c : Thread nD τ).loc b))

theorem hz : (![0, 0] : Fin 2 → Nat) = fun _ => 0 := funext fun a => by fin_cases a <;> rfl

/-- The row coordinate of a rank-2 index. -/
abbrev row {n0 n1 : Nat} (i : (⟨2, ![n0, n1]⟩ : Shape).Idx) : Fin n0 := i 0
/-- The column coordinate of a rank-2 index. -/
abbrev col {n0 n1 : Nat} (i : (⟨2, ![n0, n1]⟩ : Shape).Idx) : Fin n1 := i 1

/-! ## Region 0: the padded first layer, in one step over whole arrays -/

/-- Row l, column k: row l of `H` against column k of `Wp`, plus entry k of the row vector `bp`. -/
def G0 (H : S10000x128.Idx → EReal) (Wp : S128x32.Idx → EReal) (bp : S1x32.Idx → EReal) : S10000x32.Idx → EReal :=
  fun i => (∑ d : Fin 128, H (ix2 (row i) d) * Wp (ix2 d (col i))) + bp (ix2 (0 : Fin 1) (col i))

/-- Every window of the one-point region sits at block index zero. -/
theorem idx0 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- The features' block is the whole array. -/
theorem blk0_0 (c : Dev nD) (t : Fin cfg0.N) (l : Fin 10000) (d : Fin 128) :
    iblk0 V c 0 t (ix2 l d) = (V c main_arg1 : S10000x128.Idx → EReal) (ix2 l d) := by
  show (V c main_arg1 : S10000x128.Idx → EReal) (((cfg0.win 0).blk t).view.emb (ix2 l d)) = _
  have h : ((cfg0.win 0).blk t).view.emb (ix2 l d) = ix2 l d := by
    obtain ⟨e0, e1, -⟩ := idx0 t
    funext a; apply Fin.ext
    match a with
    | ⟨0, _⟩ => show win0_0.index t (0 : Fin 2) * 10000 + 1 * l.val = l.val; omega
    | ⟨1, _⟩ => show win0_0.index t (1 : Fin 2) * 128 + 1 * d.val = d.val; omega
  rw [h]

/-- The padded first-layer matrix's block is the whole array. -/
theorem blk0_1 (c : Dev nD) (t : Fin cfg0.N) (d : Fin 128) (k : Fin 32) :
    iblk0 V c 1 t (ix2 d k) = (V c main_call0_v2 : S128x32.Idx → EReal) (ix2 d k) := by
  show (V c main_call0_v2 : S128x32.Idx → EReal) (((cfg0.win 1).blk t).view.emb (ix2 d k)) = _
  have h : ((cfg0.win 1).blk t).view.emb (ix2 d k) = ix2 d k := by
    obtain ⟨-, -, e2, e3, -⟩ := idx0 t
    funext a; apply Fin.ext
    match a with
    | ⟨0, _⟩ => show win0_1.index t (0 : Fin 2) * 128 + 1 * d.val = d.val; omega
    | ⟨1, _⟩ => show win0_1.index t (1 : Fin 2) * 32 + 1 * k.val = k.val; omega
  rw [h]

/-- The padded bias row's block is the whole array. -/
theorem blk0_2 (c : Dev nD) (t : Fin cfg0.N) (r : Fin 1) (k : Fin 32) :
    iblk0 V c 2 t (ix2 r k) = (V c main_call0_v7 : S1x32.Idx → EReal) (ix2 r k) := by
  show (V c main_call0_v7 : S1x32.Idx → EReal) (((cfg0.win 2).blk t).view.emb (ix2 r k)) = _
  have h : ((cfg0.win 2).blk t).view.emb (ix2 r k) = ix2 r k := by
    obtain ⟨-, -, -, -, e4, e5, -⟩ := idx0 t
    funext a; apply Fin.ext
    match a with
    | ⟨0, _⟩ => show win0_2.index t (0 : Fin 2) * 1 + 1 * r.val = r.val; omega
    | ⟨1, _⟩ => show win0_2.index t (1 : Fin 2) * 32 + 1 * k.val = k.val; omega
  rw [h]

/-- What the one point writes back is `G0` of the arrays the region finds. -/
theorem flushed0_eq (c : Dev nD) (t : Fin cfg0.N) :
    (dat0 V c).flushed 3 t = ((cfg0.win 3).blk t).view.read (Elt Ideal) (G0 (V c main_arg1) (V c main_call0_v2) (V c main_call0_v7)) := by
  show (cfg0.win 3).cut (grid0.coords t) ((dat0 V c).after 3 t) = _
  rw [after0_3]
  unfold out0_3
  rw [View.canon_unit_zero hz]
  simp only [View.ld_unit_zero (S := S10000x128) hz, View.ld_unit_zero (S := S128x32) hz, View.ld_unit_zero (S := S1x32) hz]
  funext j
  obtain ⟨p, q, rfl⟩ : ∃ (p : Fin 10000) (q : Fin 32), j = ix2 p q := ⟨j 0, j 1, eq_ix2 j⟩
  obtain ⟨-, -, -, -, -, -, e6, e7⟩ := idx0 t
  have hemb : ((cfg0.win 3).blk t).view.emb (ix2 p q) = ix2 p q := by
    funext a; apply Fin.ext
    match a with
    | ⟨0, _⟩ => show win0_3.index t (0 : Fin 2) * 10000 + 1 * p.val = p.val; omega
    | ⟨1, _⟩ => show win0_3.index t (1 : Fin 2) * 32 + 1 * q.val = q.val; omega
  show k0_pay1 (F := Ideal) (iblk0 V c 0 t) (iblk0 V c 1 t) (iblk0 V c 2 t) (ix2 p q)
    = G0 (V c main_arg1) (V c main_call0_v2) (V c main_call0_v7) (((cfg0.win 3).blk t).view.emb (ix2 p q))
  rw [hemb]
  refine (pay0_apply (iblk0 V c 0 t) (iblk0 V c 1 t) (iblk0 V c 2 t) p q).trans ?_
  unfold G0
  simp only [blk0_0 V c t p _, blk0_1 V c t _ q, blk0_2 V c t 0 q]

/-- An index of the output array is in the one point's block iff its coordinates are in the block's ranges. -/
theorem mem_blk0 (t : Fin cfg0.N) (i : S10000x32.Idx) :
    i ∈ ((cfg0.win 3).blk t).view.set ↔ ∀ a : Fin 2, win0_3.index t a * S10000x32.size a ≤ (i a).val ∧ (i a).val < win0_3.index t a * S10000x32.size a + S10000x32.size a := by
  show i ∈ ((View.whole main_call0_v13).slice (win0_3.rect t)).set ↔ _
  rw [View.set_slice_whole, Rect.mem_set_unit]
  exact Iff.rfl

/-- The one block is the whole output array. -/
theorem cover0 (i : S10000x32.Idx) :
    ∃ t : Fin cfg0.N, (cfg0.win 3).flush t = true ∧ i ∈ ((cfg0.win 3).blk t).view.set := by
  have hi0 : (i 0).val < 10000 := (i 0).isLt
  have hi1 : (i 1).val < 32 := (i 1).isLt
  obtain ⟨-, -, -, -, -, -, e6, e7⟩ := idx0 ⟨0, by decide⟩
  refine ⟨⟨0, by decide⟩, flush0_3 _, ?_⟩
  rw [mem_blk0]
  intro a
  match a with
  | ⟨0, _⟩ => show win0_3.index _ (0 : Fin 2) * 10000 ≤ (i 0).val ∧ (i 0).val < win0_3.index _ (0 : Fin 2) * 10000 + 10000; rw [e6]; omega
  | ⟨1, _⟩ => show win0_3.index _ (1 : Fin 2) * 32 ≤ (i 1).val ∧ (i 1).val < win0_3.index _ (1 : Fin 2) * 32 + 32; rw [e7]; omega

/-- Region 0's output array after the region. -/
theorem region0 (c : Dev nD) :
    (dat0 V c).arrAt 3 cfg0.N = G0 (V c main_arg1) (V c main_call0_v2) (V c main_call0_v7) :=
  (dat0 V c).arrAt_eq_of_cover 3 _ (fun t _ => flushed0_eq V c t) cover0

/-! ## Region 1: the rectified first convolution, with the column of ones -/

/-- Row l, column k: one in column 16, elsewhere the rectified contraction of row l of `A` with column k of `T`. -/
def G1 (A : S10000x10000.Idx → EReal) (T : S10000x32.Idx → EReal) : S10000x32.Idx → EReal :=
  fun i => if (col i).val = 16 then 1 else max (∑ l : Fin 10000, A (ix2 (row i) l) * T (ix2 l (col i))) 0

/-- The index maps over the 25 points: the adjacency and the output move down one block of rows per point, the
    second input stays. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Entry (p, l) of the adjacency's block at point t is entry (400·t + p, l) of the adjacency. -/
theorem blk1_0 (c : Dev nD) (t : Fin cfg1.N) (p : Fin 400) (l : Fin 10000) (r : Fin 10000) (hr : r.val = t.val * 400 + p.val) :
    iblk1 V c 0 t (ix2 p l) = (V c main_arg0 : S10000x10000.Idx → EReal) (ix2 r l) := by
  show (V c main_arg0 : S10000x10000.Idx → EReal) (((cfg1.win 0).blk t).view.emb (ix2 p l)) = _
  have h : ((cfg1.win 0).blk t).view.emb (ix2 p l) = ix2 r l := by
    obtain ⟨e0, e1, -⟩ := idx1 t
    funext a; apply Fin.ext
    match a with
    | ⟨0, _⟩ => show win1_0.index t (0 : Fin 2) * 400 + 1 * p.val = r.val; omega
    | ⟨1, _⟩ => show win1_0.index t (1 : Fin 2) * 10000 + 1 * l.val = l.val; omega
  rw [h]

/-- The second input's block at every point is the whole array. -/
theorem blk1_1 (c : Dev nD) (t : Fin cfg1.N) (l : Fin 10000) (k : Fin 32) :
    iblk1 V c 1 t (ix2 l k) = (V c main_call0_v13 : S10000x32.Idx → EReal) (ix2 l k) := by
  show (V c main_call0_v13 : S10000x32.Idx → EReal) (((cfg1.win 1).blk t).view.emb (ix2 l k)) = _
  have h : ((cfg1.win 1).blk t).view.emb (ix2 l k) = ix2 l k := by
    obtain ⟨-, -, e2, e3, -⟩ := idx1 t
    funext a; apply Fin.ext
    match a with
    | ⟨0, _⟩ => show win1_1.index t (0 : Fin 2) * 10000 + 1 * l.val = l.val; omega
    | ⟨1, _⟩ => show win1_1.index t (1 : Fin 2) * 32 + 1 * k.val = k.val; omega
  rw [h]

/-- What point t writes back is block t of `G1` of the arrays the region finds. -/
theorem flushed1_eq (c : Dev nD) (t : Fin cfg1.N) :
    (dat1 V c).flushed 2 t = ((cfg1.win 2).blk t).view.read (Elt Ideal) (G1 (V c main_arg0) (V c main_call0_v13)) := by
  show (cfg1.win 2).cut (grid1.coords t) ((dat1 V c).after 2 t) = _
  rw [after1_2]
  unfold out1_2
  rw [View.canon_unit_zero hz]
  simp only [View.ld_unit_zero (S := S400x10000) hz, View.ld_unit_zero (S := S10000x32) hz]
  funext j
  obtain ⟨p, q, rfl⟩ : ∃ (p : Fin 400) (q : Fin 32), j = ix2 p q := ⟨j 0, j 1, eq_ix2 j⟩
  have ht : t.val < 25 := t.isLt
  have hp : p.val < 400 := p.isLt
  obtain ⟨-, -, -, -, e4, e5⟩ := idx1 t
  have hemb : ((cfg1.win 2).blk t).view.emb (ix2 p q) = ix2 (⟨t.val * 400 + p.val, by omega⟩ : Fin 10000) q := by
    funext a; apply Fin.ext
    match a with
    | ⟨0, _⟩ => show win1_2.index t (0 : Fin 2) * 400 + 1 * p.val = t.val * 400 + p.val; omega
    | ⟨1, _⟩ => show win1_2.index t (1 : Fin 2) * 32 + 1 * q.val = q.val; omega
  show k1_pay1 (F := Ideal) (iblk1 V c 0 t) (iblk1 V c 1 t) (ix2 p q)
    = G1 (V c main_arg0) (V c main_call0_v13) (((cfg1.win 2).blk t).view.emb (ix2 p q))
  rw [hemb]
  refine (pay1_apply (iblk1 V c 0 t) (iblk1 V c 1 t) p q).trans ?_
  unfold G1
  refine if_congr Iff.rfl rfl (congrArg (fun s => max s 0) (Finset.sum_congr rfl fun l _ => ?_))
  rw [blk1_0 V c t p l ⟨t.val * 400 + p.val, by omega⟩ rfl, blk1_1 V c t l q]

/-- An index of the output array is in point t's block iff its coordinates are in the block's ranges. -/
theorem mem_blk1 (t : Fin cfg1.N) (i : S10000x32.Idx) :
    i ∈ ((cfg1.win 2).blk t).view.set ↔ ∀ a : Fin 2, win1_2.index t a * S400x32.size a ≤ (i a).val ∧ (i a).val < win1_2.index t a * S400x32.size a + S400x32.size a := by
  show i ∈ ((View.whole main_call0_v14).slice (win1_2.rect t)).set ↔ _
  rw [View.set_slice_whole, Rect.mem_set_unit]
  exact Iff.rfl

/-- Row r of the output array lies in the block of point r / 400. -/
theorem cover1 (i : S10000x32.Idx) :
    ∃ t : Fin cfg1.N, (cfg1.win 2).flush t = true ∧ i ∈ ((cfg1.win 2).blk t).view.set := by
  have hi0 : (i 0).val < 10000 := (i 0).isLt
  have hi1 : (i 1).val < 32 := (i 1).isLt
  obtain ⟨-, -, -, -, e4, e5⟩ := idx1 ⟨(i 0).val / 400, by show (i 0).val / 400 < 25; omega⟩
  have e4' : win1_2.index ⟨(i 0).val / 400, by show (i 0).val / 400 < 25; omega⟩ (0 : Fin 2) = (i 0).val / 400 := e4
  refine ⟨⟨(i 0).val / 400, by show (i 0).val / 400 < 25; omega⟩, flush1_2 _, ?_⟩
  rw [mem_blk1]
  intro a
  match a with
  | ⟨0, _⟩ => show win1_2.index _ (0 : Fin 2) * 400 ≤ (i 0).val ∧ (i 0).val < win1_2.index _ (0 : Fin 2) * 400 + 400; rw [e4']; omega
  | ⟨1, _⟩ => show win1_2.index _ (1 : Fin 2) * 32 ≤ (i 1).val ∧ (i 1).val < win1_2.index _ (1 : Fin 2) * 32 + 32; rw [e5]; omega

/-- Region 1's output array after the region. -/
theorem region1 (c : Dev nD) : (dat1 V c).arrAt 2 cfg1.N = G1 (V c main_arg0) (V c main_call0_v13) :=
  (dat1 V c).arrAt_eq_of_cover 2 _ (fun t _ => flushed1_eq V c t) cover1

/-! ## Region 2: the second convolution on the padded columns, then the padded second layer -/

/-- Row i, column j: over the 32 padded columns k, the contraction of row i of `A` with column k of `Y`, times
    entry (k, j) of `W`. -/
def G2 (A : S10000x10000.Idx → EReal) (Y : S10000x32.Idx → EReal) (W : S32x128.Idx → EReal) : S10000x128.Idx → EReal :=
  fun i => ∑ k : Fin 32, (∑ l : Fin 10000, A (ix2 (row i) l) * Y (ix2 l k)) * W (ix2 k (col i))

/-- The index maps over the 25 points: the adjacency and the output move down one block of rows per point, the two
    other inputs stay. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Entry (p, l) of the adjacency's block at point t is entry (400·t + p, l) of the adjacency. -/
theorem blk2_0 (c : Dev nD) (t : Fin cfg2.N) (p : Fin 400) (l : Fin 10000) (r : Fin 10000) (hr : r.val = t.val * 400 + p.val) :
    iblk2 V c 0 t (ix2 p l) = (V c main_arg0 : S10000x10000.Idx → EReal) (ix2 r l) := by
  show (V c main_arg0 : S10000x10000.Idx → EReal) (((cfg2.win 0).blk t).view.emb (ix2 p l)) = _
  have h : ((cfg2.win 0).blk t).view.emb (ix2 p l) = ix2 r l := by
    obtain ⟨e0, e1, -⟩ := idx2 t
    funext a; apply Fin.ext
    match a with
    | ⟨0, _⟩ => show win2_0.index t (0 : Fin 2) * 400 + 1 * p.val = r.val; omega
    | ⟨1, _⟩ => show win2_0.index t (1 : Fin 2) * 10000 + 1 * l.val = l.val; omega
  rw [h]

/-- The activations' block at every point is the whole array. -/
theorem blk2_1 (c : Dev nD) (t : Fin cfg2.N) (l : Fin 10000) (k : Fin 32) :
    iblk2 V c 1 t (ix2 l k) = (V c main_call0_v14 : S10000x32.Idx → EReal) (ix2 l k) := by
  show (V c main_call0_v14 : S10000x32.Idx → EReal) (((cfg2.win 1).blk t).view.emb (ix2 l k)) = _
  have h : ((cfg2.win 1).blk t).view.emb (ix2 l k) = ix2 l k := by
    obtain ⟨-, -, e2, e3, -⟩ := idx2 t
    funext a; apply Fin.ext
    match a with
    | ⟨0, _⟩ => show win2_1.index t (0 : Fin 2) * 10000 + 1 * l.val = l.val; omega
    | ⟨1, _⟩ => show win2_1.index t (1 : Fin 2) * 32 + 1 * k.val = k.val; omega
  rw [h]

/-- The padded second layer's block at every point is the whole array. -/
theorem blk2_2 (c : Dev nD) (t : Fin cfg2.N) (k : Fin 32) (j : Fin 128) :
    iblk2 V c 2 t (ix2 k j) = (V c main_call0_v12 : S32x128.Idx → EReal) (ix2 k j) := by
  show (V c main_call0_v12 : S32x128.Idx → EReal) (((cfg2.win 2).blk t).view.emb (ix2 k j)) = _
  have h : ((cfg2.win 2).blk t).view.emb (ix2 k j) = ix2 k j := by
    obtain ⟨-, -, -, -, e4, e5, -⟩ := idx2 t
    funext a; apply Fin.ext
    match a with
    | ⟨0, _⟩ => show win2_2.index t (0 : Fin 2) * 32 + 1 * k.val = k.val; omega
    | ⟨1, _⟩ => show win2_2.index t (1 : Fin 2) * 128 + 1 * j.val = j.val; omega
  rw [h]

/-- What point t writes back is block t of `G2` of the arrays the region finds. -/
theorem flushed2_eq (c : Dev nD) (t : Fin cfg2.N) :
    (dat2 V c).flushed 3 t = ((cfg2.win 3).blk t).view.read (Elt Ideal) (G2 (V c main_arg0) (V c main_call0_v14) (V c main_call0_v12)) := by
  show (cfg2.win 3).cut (grid2.coords t) ((dat2 V c).after 3 t) = _
  rw [after2_3]
  unfold out2_3
  rw [View.canon_unit_zero hz]
  simp only [View.ld_unit_zero (S := S400x10000) hz, View.ld_unit_zero (S := S10000x32) hz, View.ld_unit_zero (S := S32x128) hz]
  funext j
  obtain ⟨p, q, rfl⟩ : ∃ (p : Fin 400) (q : Fin 128), j = ix2 p q := ⟨j 0, j 1, eq_ix2 j⟩
  have ht : t.val < 25 := t.isLt
  have hp : p.val < 400 := p.isLt
  obtain ⟨-, -, -, -, -, -, e6, e7⟩ := idx2 t
  have hemb : ((cfg2.win 3).blk t).view.emb (ix2 p q) = ix2 (⟨t.val * 400 + p.val, by omega⟩ : Fin 10000) q := by
    funext a; apply Fin.ext
    match a with
    | ⟨0, _⟩ => show win2_3.index t (0 : Fin 2) * 400 + 1 * p.val = t.val * 400 + p.val; omega
    | ⟨1, _⟩ => show win2_3.index t (1 : Fin 2) * 128 + 1 * q.val = q.val; omega
  show k2_pay1 (F := Ideal) (iblk2 V c 0 t) (iblk2 V c 1 t) (iblk2 V c 2 t) (ix2 p q)
    = G2 (V c main_arg0) (V c main_call0_v14) (V c main_call0_v12) (((cfg2.win 3).blk t).view.emb (ix2 p q))
  rw [hemb]
  refine (pay2_apply (iblk2 V c 0 t) (iblk2 V c 1 t) (iblk2 V c 2 t) p q).trans ?_
  unfold G2
  simp only [blk2_0 V c t p _ ⟨t.val * 400 + p.val, by omega⟩ rfl, blk2_1 V c t _ _, blk2_2 V c t _ q]

/-- An index of the output array is in point t's block iff its coordinates are in the block's ranges. -/
theorem mem_blk2 (t : Fin cfg2.N) (i : S10000x128.Idx) :
    i ∈ ((cfg2.win 3).blk t).view.set ↔ ∀ a : Fin 2, win2_3.index t a * S400x128.size a ≤ (i a).val ∧ (i a).val < win2_3.index t a * S400x128.size a + S400x128.size a := by
  show i ∈ ((View.whole main_v0).slice (win2_3.rect t)).set ↔ _
  rw [View.set_slice_whole, Rect.mem_set_unit]
  exact Iff.rfl

/-- Row r of the output array lies in the block of point r / 400. -/
theorem cover2 (i : S10000x128.Idx) :
    ∃ t : Fin cfg2.N, (cfg2.win 3).flush t = true ∧ i ∈ ((cfg2.win 3).blk t).view.set := by
  have hi0 : (i 0).val < 10000 := (i 0).isLt
  have hi1 : (i 1).val < 128 := (i 1).isLt
  obtain ⟨-, -, -, -, -, -, e6, e7⟩ := idx2 ⟨(i 0).val / 400, by show (i 0).val / 400 < 25; omega⟩
  have e6' : win2_3.index ⟨(i 0).val / 400, by show (i 0).val / 400 < 25; omega⟩ (0 : Fin 2) = (i 0).val / 400 := e6
  refine ⟨⟨(i 0).val / 400, by show (i 0).val / 400 < 25; omega⟩, flush2_3 _, ?_⟩
  rw [mem_blk2]
  intro a
  match a with
  | ⟨0, _⟩ => show win2_3.index _ (0 : Fin 2) * 400 ≤ (i 0).val ∧ (i 0).val < win2_3.index _ (0 : Fin 2) * 400 + 400; rw [e6']; omega
  | ⟨1, _⟩ => show win2_3.index _ (1 : Fin 2) * 128 ≤ (i 1).val ∧ (i 1).val < win2_3.index _ (1 : Fin 2) * 128 + 128; rw [e7]; omega

/-- Region 2's output array after the region. -/
theorem region2 (c : Dev nD) :
    (dat2 V c).arrAt 3 cfg2.N = G2 (V c main_arg0) (V c main_call0_v14) (V c main_call0_v12) :=
  (dat2 V c).arrAt_eq_of_cover 3 _ (fun t _ => flushed2_eq V c t) cover2

end Cert.KernelIdeal.RegionValue

end
-- ==== Proof.PadRead.lean ====
/-
  The padded weight arrays read at a coordinate. Each is written by a replace-scatter: an array of one repeated value
  into which a smaller array is copied at a fixed start; a replace-scatter folds the update's elements, in row-major
  order, each onto the place its index names, so where the places are pairwise distinct the result holds the update's
  element at each place named and the operand's everywhere else.
-/
import proofs.«143129_g24318104830749_cont_sun_m_1374_4_alg».proof.KernelIdeal
import Idealize.ShloMosaic.Lib.ValueIdx

noncomputable section

namespace Cert.KernelIdeal.PadRead

open Idealize.ShloMosaic Idealize.ShloMosaic.ValueIdx Cert.KernelIdeal

variable [Facts] {α : Type}

/-! ## The fold read at a place, for any dimension numbers -/

section General

variable {s si u : Shape} {w : Nat}

/-- One step of the fold: the update's element at an index replaces the element at the place that index names, if
    it names one. -/
private def stepAt (D : ScatterDims s si u) (idx : IVec si w) (upd : u.Idx → α) (r : s.Idx → α) (j : u.Idx) : s.Idx → α :=
  match D.resultIdx? j idx with
  | some i => fun i' => if i' = i then upd j else r i'
  | none => r

/-- The replace-scatter is the fold of that step over the update's indices in row-major order. -/
private theorem scatter_eq_foldl (D : ScatterDims s si u) (x : s.Idx → α) (idx : IVec si w) (upd : u.Idx → α) :
    Host.scatter D (fun _ b => b) x idx upd
      = ((List.finRange u.numel).map u.rowMajor.symm).foldl (stepAt D idx upd) x := by
  rw [List.foldl_map]; rfl

/-- A place no index of the list names keeps the element it had before the fold. -/
private theorem foldl_miss (D : ScatterDims s si u) (idx : IVec si w) (upd : u.Idx → α) (i : s.Idx) :
    ∀ (l : List u.Idx) (x : s.Idx → α), (∀ j ∈ l, D.resultIdx? j idx ≠ some i) →
      l.foldl (stepAt D idx upd) x i = x i := by
  intro l
  induction l with
  | nil => intro x _; rfl
  | cons m l ih =>
    intro x h
    rw [List.foldl_cons, ih _ fun j hj => h j (List.mem_cons_of_mem _ hj)]
    have hm := h m (List.mem_cons_self ..)
    unfold stepAt
    cases hr : D.resultIdx? m idx with
    | none => rfl
    | some i₀ =>
      have hne : i ≠ i₀ := fun e => hm (by rw [hr, e])
      simp only [if_neg hne]

/-- A place exactly one index of a list without repeats names holds that index's element after the fold. -/
private theorem foldl_hit (D : ScatterDims s si u) (idx : IVec si w) (upd : u.Idx → α) (i : s.Idx) (j : u.Idx)
    (hj : D.resultIdx? j idx = some i) :
    ∀ (l : List u.Idx) (x : s.Idx → α), l.Nodup → j ∈ l → (∀ j' ∈ l, D.resultIdx? j' idx = some i → j' = j) →
      l.foldl (stepAt D idx upd) x i = upd j := by
  intro l
  induction l with
  | nil => intro x _ hmem; exact absurd hmem (List.not_mem_nil)
  | cons m l ih =>
    intro x hnd hmem huniq
    rw [List.foldl_cons]
    have hnd' := List.nodup_cons.1 hnd
    by_cases hmj : m = j
    · subst hmj
      rw [foldl_miss D idx upd i l _ fun j' hj' e => hnd'.1 (huniq j' (List.mem_cons_of_mem _ hj') e ▸ hj')]
      unfold stepAt
      rw [hj]
      exact if_pos rfl
    · have hjl : j ∈ l := by
        rcases List.mem_cons.1 hmem with e | e
        · exact absurd e.symm hmj
        · exact e
      exact ih _ hnd'.2 hjl fun j' hj' e => huniq j' (List.mem_cons_of_mem _ hj') e

/-- Where every update index names a place and distinct indices name distinct places, the replace-scatter holds
    the update's element at each place named … -/
private theorem scatter_hit (D : ScatterDims s si u) (x : s.Idx → α) (idx : IVec si w) (upd : u.Idx → α)
    (g : u.Idx → s.Idx) (hg : ∀ j, D.resultIdx? j idx = some (g j)) (hinj : Function.Injective g) (j : u.Idx) :
    Host.scatter D (fun _ b => b) x idx upd (g j) = upd j := by
  rw [scatter_eq_foldl]
  refine foldl_hit D idx upd (g j) j (hg j) _ x ?_ ?_ ?_
  · exact (List.nodup_finRange _).map u.rowMajor.symm.injective
  · exact List.mem_map.2 ⟨u.rowMajor j, List.mem_finRange _, u.rowMajor.symm_apply_apply j⟩
  · intro j' _ e
    rw [hg j'] at e
    exact hinj (Option.some.inj e)

/-- … and the operand's element everywhere else. -/
private theorem scatter_miss (D : ScatterDims s si u) (x : s.Idx → α) (idx : IVec si w) (upd : u.Idx → α)
    (g : u.Idx → s.Idx) (hg : ∀ j, D.resultIdx? j idx = some (g j)) (i : s.Idx) (hi : ∀ j, g j ≠ i) :
    Host.scatter D (fun _ b => b) x idx upd i = x i := by
  rw [scatter_eq_foldl]
  refine foldl_miss D idx upd i _ x fun j _ e => ?_
  rw [hg j] at e
  exact hi j (Option.some.inj e)

/-- The place an update index names, from the sum of start and window coordinate on every axis. -/
private theorem resultIdx?_eq_some (D : ScatterDims s si u) (j : u.Idx) (idx : IVec si w) (i : s.Idx)
    (h : ∀ a, D.start j idx a + D.window j a = (i a).val) : D.resultIdx? j idx = some i := by
  unfold ScatterDims.resultIdx?
  have hc : ∀ a, 0 ≤ D.start j idx a + D.window j a ∧ D.start j idx a + D.window j a < s.size a := by
    intro a; rw [h a]; exact ⟨Int.natCast_nonneg _, by exact_mod_cast (i a).isLt⟩
  rw [dif_pos hc]
  congr 1
  funext a
  apply Fin.ext
  simp only [h a, Int.toNat_natCast]

/-- Under scatter indices that all hold one word, the window starts at that word's signed value on the axes the
    map names and at zero on the others. -/
private theorem start_const (D : ScatterDims s si u) (j : u.Idx) (idx : IVec si w) (c : BitVec w)
    (hidx : ∀ k, idx k = c) (a : Fin s.rank) :
    D.start j idx a = if a ∈ D.scatterDimsToOperandDims then c.toInt else 0 := by
  unfold ScatterDims.start
  split
  · rw [hidx]
  · rfl

/-- Under scatter indices that all hold the zero word, the window starts at zero on every axis. -/
private theorem start_zero (D : ScatterDims s si u) (j : u.Idx) (idx : IVec si w) (hidx : ∀ k, idx k = 0#w)
    (a : Fin s.rank) : D.start j idx a = 0 := by
  rw [start_const D j idx _ hidx a]
  split
  · exact BitVec.toInt_zero
  · rfl

end General

/-! ## The four padded arrays -/

section W0

/-- The place an element of the 128 × 16 update lands at: its own row and column in the 128 × 32 array. -/
private def gW0 (j : S128x16.Idx) : S128x32.Idx := ix2 (j 0) ⟨(j 1).val, by have := idx2_lt1 j; omega⟩

private theorem resultIdx_W0 (idx : IVec S1 32) (hidx : ∀ k, idx k = 0#32) (j : S128x16.Idx) :
    scatter_S128x32_S1_S128x16_01_n_1_0.resultIdx? j idx = some (gW0 j) := by
  apply resultIdx?_eq_some
  intro a
  rw [start_zero _ j idx hidx a, Int.zero_add]
  match a with
  | ⟨0, _⟩ => rfl
  | ⟨1, _⟩ => rfl

private theorem gW0_injective : Function.Injective gW0 := by
  intro j j' h
  have h0 : j 0 = j' 0 := congrFun h 0
  have h1' : (gW0 j 1).val = (gW0 j' 1).val := congrArg Fin.val (congrFun h 1)
  have h1 : (j 1).val = (j' 1).val := h1'
  funext a
  match a with
  | ⟨0, _⟩ => exact h0
  | ⟨1, _⟩ => exact Fin.ext h1

end W0

/-- A 128 × 16 array copied into columns 0 … 15 of a 128 × 32 array. -/
theorem scatter_W0 (x : S128x32.Idx → α) (idx : IVec S1 32) (hidx : ∀ k, idx k = 0#32) (upd : S128x16.Idx → α)
    (d : Fin 128) (k : Fin 32) :
    Host.scatter scatter_S128x32_S1_S128x16_01_n_1_0 (fun _ b => b) x idx upd (ix2 d k)
      = if hk : k.val < 16 then upd (ix2 d ⟨k.val, hk⟩) else x (ix2 d k) := by
  by_cases hk : k.val < 16
  · rw [dif_pos hk]
    have hplace : gW0 (ix2 d ⟨k.val, hk⟩) = ix2 d k := by
      funext a
      match a with
      | ⟨0, _⟩ => rfl
      | ⟨1, _⟩ => rfl
    rw [← hplace]
    exact scatter_hit _ x idx upd gW0 (resultIdx_W0 idx hidx) gW0_injective _
  · rw [dif_neg hk]
    refine scatter_miss _ x idx upd gW0 (resultIdx_W0 idx hidx) _ fun j h => hk ?_
    have h1' : (gW0 j 1).val = (ix2 d k 1).val := congrArg Fin.val (congrFun h 1)
    have h1 : (j 1).val = k.val := h1'
    have := idx2_lt1 j
    omega

section b0

/-- The place an element of the 16-vector lands at: row 0, its own position as the column. -/
private def gb0 (j : S16.Idx) : S1x32.Idx :=
  ix2 (0 : Fin 1) ⟨(j 0).val, by have : (j 0).val < 16 := (j 0).isLt; omega⟩

private theorem resultIdx_b0 (idx : IVec S2 32) (hidx : ∀ k, idx k = 0#32) (j : S16.Idx) :
    scatter_S1x32_S2_S16_0_0_01_0.resultIdx? j idx = some (gb0 j) := by
  apply resultIdx?_eq_some
  intro a
  rw [start_zero _ j idx hidx a, Int.zero_add]
  match a with
  | ⟨0, _⟩ => rfl
  | ⟨1, _⟩ => rfl

private theorem gb0_injective : Function.Injective gb0 := by
  intro j j' h
  have h1' : (gb0 j 1).val = (gb0 j' 1).val := congrArg Fin.val (congrFun h 1)
  have h1 : (j 0).val = (j' 0).val := h1'
  funext a
  match a with
  | ⟨0, _⟩ => exact Fin.ext h1

end b0

/-- A vector of 16 copied into columns 0 … 15 of a 1 × 32 array. -/
theorem scatter_b0 (x : S1x32.Idx → α) (idx : IVec S2 32) (hidx : ∀ k, idx k = 0#32) (upd : S16.Idx → α)
    (r : Fin 1) (k : Fin 32) :
    Host.scatter scatter_S1x32_S2_S16_0_0_01_0 (fun _ b => b) x idx upd (ix2 r k)
      = if hk : k.val < 16 then upd (ix1 ⟨k.val, hk⟩) else x (ix2 r k) := by
  by_cases hk : k.val < 16
  · rw [dif_pos hk]
    have hplace : gb0 (ix1 ⟨k.val, hk⟩) = ix2 r k := by
      funext a
      match a with
      | ⟨0, _⟩ =>
        apply Fin.ext
        show (0 : Nat) = r.val
        have := r.isLt
        omega
      | ⟨1, _⟩ => rfl
    rw [← hplace]
    exact scatter_hit _ x idx upd gb0 (resultIdx_b0 idx hidx) gb0_injective _
  · rw [dif_neg hk]
    refine scatter_miss _ x idx upd gb0 (resultIdx_b0 idx hidx) _ fun j h => hk ?_
    have h1' : (gb0 j 1).val = (ix2 r k 1).val := congrArg Fin.val (congrFun h 1)
    have h1 : (j 0).val = k.val := h1'
    have : (j 0).val < 16 := (j 0).isLt
    omega

section W1

/-- The place an element of the 16 × 128 update lands at: its own row and column in the 32 × 128 array. -/
private def gW1 (j : S16x128.Idx) : S32x128.Idx := ix2 ⟨(j 0).val, by have := idx2_lt0 j; omega⟩ (j 1)

private theorem resultIdx_W1 (idx : IVec S1 32) (hidx : ∀ k, idx k = 0#32) (j : S16x128.Idx) :
    scatter_S32x128_S1_S16x128_01_n_0_0.resultIdx? j idx = some (gW1 j) := by
  apply resultIdx?_eq_some
  intro a
  rw [start_zero _ j idx hidx a, Int.zero_add]
  match a with
  | ⟨0, _⟩ => rfl
  | ⟨1, _⟩ => rfl

private theorem gW1_injective : Function.Injective gW1 := by
  intro j j' h
  have h0' : (gW1 j 0).val = (gW1 j' 0).val := congrArg Fin.val (congrFun h 0)
  have h0 : (j 0).val = (j' 0).val := h0'
  have h1 : j 1 = j' 1 := congrFun h 1
  funext a
  match a with
  | ⟨0, _⟩ => exact Fin.ext h0
  | ⟨1, _⟩ => exact h1

end W1

/-- A 16 × 128 array copied into rows 0 … 15 of a 32 × 128 array. -/
theorem scatter_W1 (x : S32x128.Idx → α) (idx : IVec S1 32) (hidx : ∀ k, idx k = 0#32) (upd : S16x128.Idx → α)
    (k : Fin 32) (j : Fin 128) :
    Host.scatter scatter_S32x128_S1_S16x128_01_n_0_0 (fun _ b => b) x idx upd (ix2 k j)
      = if hk : k.val < 16 then upd (ix2 ⟨k.val, hk⟩ j) else x (ix2 k j) := by
  by_cases hk : k.val < 16
  · rw [dif_pos hk]
    have hplace : gW1 (ix2 ⟨k.val, hk⟩ j) = ix2 k j := by
      funext a
      match a with
      | ⟨0, _⟩ => rfl
      | ⟨1, _⟩ => rfl
    rw [← hplace]
    exact scatter_hit _ x idx upd gW1 (resultIdx_W1 idx hidx) gW1_injective _
  · rw [dif_neg hk]
    refine scatter_miss _ x idx upd gW1 (resultIdx_W1 idx hidx) _ fun j' h => hk ?_
    have h0' : (gW1 j' 0).val = (ix2 k j 0).val := congrArg Fin.val (congrFun h 0)
    have h0 : (j' 0).val = k.val := h0'
    have := idx2_lt0 j'
    omega

section b1

/-- The place an element of the 128-vector lands at: row 16, its own position as the column. -/
private def gb1 (j : S128.Idx) : S32x128.Idx := ix2 (16 : Fin 32) (j 0)

private theorem resultIdx_b1 (idx : IVec S1 32) (hidx : ∀ k, idx k = 16#32) (j : S128.Idx) :
    scatter_S32x128_S1_S128_0_0_0_0.resultIdx? j idx = some (gb1 j) := by
  apply resultIdx?_eq_some
  intro a
  rw [start_const _ j idx _ hidx a]
  match a with
  | ⟨0, _⟩ => rfl
  | ⟨1, _⟩ =>
    show (0 : Int) + _ = _
    rw [Int.zero_add]
    rfl

private theorem gb1_injective : Function.Injective gb1 := by
  intro j j' h
  have h1 : j 0 = j' 0 := congrFun h 1
  funext a
  match a with
  | ⟨0, _⟩ => exact h1

end b1

/-- A vector of 128 copied into row 16 of a 32 × 128 array. -/
theorem scatter_b1 (x : S32x128.Idx → α) (idx : IVec S1 32) (hidx : ∀ k, idx k = 16#32) (upd : S128.Idx → α)
    (k : Fin 32) (j : Fin 128) :
    Host.scatter scatter_S32x128_S1_S128_0_0_0_0 (fun _ b => b) x idx upd (ix2 k j)
      = if k.val = 16 then upd (ix1 j) else x (ix2 k j) := by
  by_cases hk : k.val = 16
  · rw [if_pos hk]
    have hplace : gb1 (ix1 j) = ix2 k j := by
      funext a
      match a with
      | ⟨0, _⟩ => exact Fin.ext hk.symm
      | ⟨1, _⟩ => rfl
    rw [← hplace]
    exact scatter_hit _ x idx upd gb1 (resultIdx_b1 idx hidx) gb1_injective _
  · rw [if_neg hk]
    refine scatter_miss _ x idx upd gb1 (resultIdx_b1 idx hidx) _ fun j' h => hk ?_
    have h0' : (gb1 j' 0).val = (ix2 k j 0).val := congrArg Fin.val (congrFun h 0)
    exact h0'.symm

end Cert.KernelIdeal.PadRead

end
-- ==== Proof.Spec.lean ====
/-
  The two programs as mathematics, over coordinates, on the extended reals. A two-layer graph convolution with a dense
  adjacency `a` (10000 × 10000), features `h` (10000 × 128), a first layer `W0`, `b0` of width 16 and a second layer
  `W1`, `b1` of width 128:

      out = a · (relu (a · (h · W0 + b0)) · W1 + b1).

  `refOut` is that formula as it stands. `kerOut` is the same value computed the other way round: the hidden width is
  padded from 16 to 32 columns, column 16 of the activations is the constant one and columns 17 … 31 are zero, and the
  second layer's matrix carries `b1` as its row 16, so that

      out = (a · [relu (a · (h · W0 + b0)) | 1 | 0]) · [W1 ; b1 ; 0].

  The contraction with `a` is done first, on 32 columns, and the bias comes out as (row sum of a) × b1.
  That the two agree is distributivity and an exchange of two finite sums; it is proved for real entries
  (Proof/Law.lean), which the certificate's precondition supplies.
-/
import Idealize.ShloMosaic.PureOps.Ideal

noncomputable section

open scoped BigOperators

namespace Cert.Gcn

variable (a : Fin 10000 → Fin 10000 → EReal) (h : Fin 10000 → Fin 128 → EReal)
  (W0 : Fin 128 → Fin 16 → EReal) (b0 : Fin 16 → EReal) (W1 : Fin 16 → Fin 128 → EReal) (b1 : Fin 128 → EReal)

/-! ## The formula as it stands -/

/-- The first dense layer: row `l` of `h · W0 + b0`. -/
def hidden (l : Fin 10000) (k : Fin 16) : EReal := (∑ d : Fin 128, h l d * W0 d k) + b0 k

/-- The first graph convolution and its rectifier: `relu (a · hidden)`. -/
def act (l : Fin 10000) (k : Fin 16) : EReal := max (∑ l' : Fin 10000, a l l' * hidden h W0 b0 l' k) 0

/-- The second dense layer under the second graph convolution: `a · (act · W1 + b1)`. -/
def refOut (i : Fin 10000) (j : Fin 128) : EReal :=
  ∑ l : Fin 10000, a i l * ((∑ k : Fin 16, act a h W0 b0 l k * W1 k j) + b1 j)

/-! ## The padded arrangement -/

/-- `W0` with sixteen zero columns appended. -/
def W0pad (d : Fin 128) (k : Fin 32) : EReal := if hk : k.val < 16 then W0 d ⟨k.val, hk⟩ else 0

/-- `b0` with sixteen zeros appended. -/
def b0pad (k : Fin 32) : EReal := if hk : k.val < 16 then b0 ⟨k.val, hk⟩ else 0

/-- `W1` with `b1` as row 16 and fifteen zero rows below it. -/
def W1pad (k : Fin 32) (j : Fin 128) : EReal :=
  if hk : k.val < 16 then W1 ⟨k.val, hk⟩ j else if k.val = 16 then b1 j else 0

/-- The padded first layer: `h · W0pad + b0pad`, 32 columns wide. -/
def hiddenPad (l : Fin 10000) (k : Fin 32) : EReal := (∑ d : Fin 128, h l d * W0pad W0 d k) + b0pad b0 k

/-- The padded activations: the rectified convolution, but for column 16, which is the constant one. -/
def actPad (l : Fin 10000) (k : Fin 32) : EReal :=
  if k.val = 16 then 1 else max (∑ l' : Fin 10000, a l l' * hiddenPad h W0 b0 l' k) 0

/-- The second convolution first, on the 32 padded columns, then the padded second layer. -/
def kerOut (i : Fin 10000) (j : Fin 128) : EReal :=
  ∑ k : Fin 32, (∑ l : Fin 10000, a i l * actPad a h W0 b0 l k) * W1pad W1 b1 k j

end Cert.Gcn

end
-- ==== Proof.KernelValue.lean ====
/-
  The kernel program's result array as one function of the six argument arrays: the three regions composed.
  The host stretch before the regions writes the padded weights (read at a coordinate: the original entry inside
  the copied part, the second bias vector on row 16 of the second layer's matrix, zero elsewhere); region 0 computes
  the padded first layer from them, region 1 the padded activations from that and the adjacency, region 2 the result
  from those, the adjacency and the padded second layer. No region writes an argument array or a padded weight, so
  each later region finds them as the host stretch left them.
-/
import proofs.«143129_g24318104830749_cont_sun_m_1374_4_alg».proof.Proof.RegionValue
import proofs.«143129_g24318104830749_cont_sun_m_1374_4_alg».proof.Proof.PadRead
import proofs.«143129_g24318104830749_cont_sun_m_1374_4_alg».proof.Proof.Spec
import Idealize.ShloMosaic.Lib.StableHlo.Run

set_option maxRecDepth 16384

noncomputable section

open scoped BigOperators

namespace Cert.KernelIdeal.KernelValue

open Idealize.ShloMosaic Idealize.ShloMosaic.TcCoe Idealize.ShloMosaic.ValueIdx Idealize.ShloMosaic.Tactic Idealize.SL.Sem
open Idealize.ShloMosaic.StableHlo
open Cert.KernelIdeal Cert.KernelIdeal.Gen Cert.KernelIdeal.RegionValue

variable (m : (ℓ : Loc nD τ sig) → Buf (Elt Ideal) ℓ) (ρ : Dev nD → PrngReg)

/-! ## The argument arrays by coordinates -/

abbrev adj (c : Dev nD) : Fin 10000 → Fin 10000 → EReal := fun i l => (m ((c : Thread nD τ).loc main_arg0) : S10000x10000.Idx → EReal) (ix2 i l)
abbrev feat (c : Dev nD) : Fin 10000 → Fin 128 → EReal := fun l d => (m ((c : Thread nD τ).loc main_arg1) : S10000x128.Idx → EReal) (ix2 l d)
abbrev w0 (c : Dev nD) : Fin 128 → Fin 16 → EReal := fun d k => (m ((c : Thread nD τ).loc main_arg2) : S128x16.Idx → EReal) (ix2 d k)
abbrev b0 (c : Dev nD) : Fin 16 → EReal := fun k => (m ((c : Thread nD τ).loc main_arg3) : S16.Idx → EReal) (ix1 k)
abbrev w1 (c : Dev nD) : Fin 16 → Fin 128 → EReal := fun k j => (m ((c : Thread nD τ).loc main_arg4) : S16x128.Idx → EReal) (ix2 k j)
abbrev b1 (c : Dev nD) : Fin 128 → EReal := fun j => (m ((c : Thread nD τ).loc main_arg5) : S128.Idx → EReal) (ix1 j)

/-! ## The padded weights the host stretch writes -/

set_option maxHeartbeats 1000000 in
/-- The first layer's matrix, padded: the replace-scatter of the argument into a zero array. -/
theorem w0pad_eq (c : Dev nD) :
    W1 m ρ c (Proc.devRef .tc main_call0_v2)
      = Host.scatter scatter_S128x32_S1_S128x16_01_n_1_0 (fun _ b => b)
          (broadcastInDim S128x32 ![] bcast_S_S128x32 (constant (F := Ideal) S_ .f32 0x00000000#32))
          (broadcastInDim S1 ![] bcast_S_S1 (constantI S_ 32 0#32))
          (m ((c : Thread nD τ).loc main_arg2)) := by
  dsimp only [W1, hostOps0]
  after_results_simp
  simp only [TRef.toBuf, TRef.ofBuf, cast_eq]

/-- Entry (d, k) of the padded first-layer matrix. -/
theorem w0pad_apply (c : Dev nD) (d : Fin 128) (k : Fin 32) :
    (W1 m ρ c (Proc.devRef .tc main_call0_v2) : S128x32.Idx → EReal) (ix2 d k) = Cert.Gcn.W0pad (w0 m c) d k := by
  rw [w0pad_eq m ρ c, PadRead.scatter_W0 _ (broadcastInDim S1 ![] bcast_S_S1 (constantI S_ 32 0#32)) (fun _ => rfl) _ d k]
  unfold Cert.Gcn.W0pad
  split
  · rfl
  · exact Ideal.ofBits_zero_f32

set_option maxHeartbeats 1000000 in
/-- The first layer's bias, padded, as a row: the replace-scatter of the argument into a zero row. -/
theorem b0pad_eq (c : Dev nD) :
    W1 m ρ c (Proc.devRef .tc main_call0_v7)
      = Host.scatter scatter_S1x32_S2_S16_0_0_01_0 (fun _ b => b)
          (broadcastInDim S1x32 ![] bcast_S_S1x32 (constant (F := Ideal) S_ .f32 0x00000000#32))
          (concatenate S2 0 [⟨S1, broadcastInDim S1 ![] bcast_S_S1 (constantI S_ 32 0#32)⟩, ⟨S1, broadcastInDim S1 ![] bcast_S_S1 (constantI S_ 32 0#32)⟩] concatenates_S1_S1_S2_d0)
          (m ((c : Thread nD τ).loc main_arg3)) := by
  dsimp only [W1, hostOps0]
  after_results
  simp only [TRef.toBuf, TRef.ofBuf, cast_eq]

/-- Both words of the start index of the bias row's scatter are zero. -/
theorem b0_start (k : S2.Idx) :
    concatenate S2 0 [⟨S1, broadcastInDim S1 ![] bcast_S_S1 (constantI S_ 32 0#32)⟩, ⟨S1, broadcastInDim S1 ![] bcast_S_S1 (constantI S_ 32 0#32)⟩] concatenates_S1_S1_S2_d0 k = 0#32 := by
  revert k
  decide

/-- Entry (0, k) of the padded first-layer bias row. -/
theorem b0pad_apply (c : Dev nD) (r : Fin 1) (k : Fin 32) :
    (W1 m ρ c (Proc.devRef .tc main_call0_v7) : S1x32.Idx → EReal) (ix2 r k) = Cert.Gcn.b0pad (b0 m c) k := by
  rw [b0pad_eq m ρ c, PadRead.scatter_b0 _ _ b0_start _ r k]
  unfold Cert.Gcn.b0pad
  split
  · rfl
  · exact Ideal.ofBits_zero_f32

set_option maxHeartbeats 1000000 in
/-- The second layer's matrix, padded: the argument copied into a zero array, then the bias onto row 16. -/
theorem w1pad_eq (c : Dev nD) :
    W1 m ρ c (Proc.devRef .tc main_call0_v12)
      = Host.scatter scatter_S32x128_S1_S128_0_0_0_0 (fun _ b => b)
          (Host.scatter scatter_S32x128_S1_S16x128_01_n_0_0 (fun _ b => b)
            (broadcastInDim S32x128 ![] bcast_S_S32x128 (constant (F := Ideal) S_ .f32 0x00000000#32))
            (broadcastInDim S1 ![] bcast_S_S1 (constantI S_ 32 0#32))
            (m ((c : Thread nD τ).loc main_arg4)))
          (broadcastInDim S1 ![] bcast_S_S1 (constantI S_ 32 16#32))
          (m ((c : Thread nD τ).loc main_arg5)) := by
  dsimp only [W1, hostOps0]
  after_results_simp
  simp only [TRef.toBuf, TRef.ofBuf, cast_eq]

/-- Entry (k, j) of the padded second-layer matrix. -/
theorem w1pad_apply (c : Dev nD) (k : Fin 32) (j : Fin 128) :
    (W1 m ρ c (Proc.devRef .tc main_call0_v12) : S32x128.Idx → EReal) (ix2 k j) = Cert.Gcn.W1pad (w1 m c) (b1 m c) k j := by
  rw [w1pad_eq m ρ c, PadRead.scatter_b1 _ (broadcastInDim S1 ![] bcast_S_S1 (constantI S_ 32 16#32)) (fun _ => rfl) _ k j,
    PadRead.scatter_W1 _ (broadcastInDim S1 ![] bcast_S_S1 (constantI S_ 32 0#32)) (fun _ => rfl) _ k j]
  unfold Cert.Gcn.W1pad
  by_cases h16 : k.val = 16
  · rw [if_pos h16, dif_neg (by omega), if_pos h16]
  · rw [if_neg h16]
    by_cases hk : k.val < 16
    · rw [dif_pos hk, dif_pos hk]
    · rw [dif_neg hk, dif_neg hk, if_neg h16]
      exact Ideal.ofBits_zero_f32

/-! ## What each region finds -/

/-- Region 2 finds the adjacency as launched. -/
theorem adj_at3 (c : Dev nD) : V3 m ρ c main_arg0 = m ((c : Thread nD τ).loc main_arg0) :=
  ((W4_arr m ρ c 0).trans (((dat2 (V3 m ρ) c).arrAt_in 0 rfl _).trans (A_eq2 (V3 m ρ) c 0))).symm.trans (W4_main_arg0 m ρ c)

/-- Region 1 finds the adjacency as launched. -/
theorem adj_at2 (c : Dev nD) : V2 m ρ c main_arg0 = m ((c : Thread nD τ).loc main_arg0) :=
  ((W3_arr m ρ c 0).trans (((dat1 (V2 m ρ) c).arrAt_in 0 rfl _).trans (A_eq1 (V2 m ρ) c 0))).symm.trans (adj_at3 m ρ c)

/-- Region 0 finds the features as launched. -/
theorem feat_at1 (c : Dev nD) : V1 m ρ c main_arg1 = m ((c : Thread nD τ).loc main_arg1) :=
  ((W2_arr m ρ c 0).trans (((dat0 (V1 m ρ) c).arrAt_in 0 rfl _).trans (A_eq0 (V1 m ρ) c 0))).symm.trans
    (((W3_of_ne m ρ c main_arg1 (by decide)).symm.trans (W4_of_ne m ρ c main_arg1 (by decide)).symm).trans (W4_main_arg1 m ρ c))

/-- Region 2 finds the padded second layer as the host stretch wrote it. -/
theorem w1pad_at3 (c : Dev nD) : V3 m ρ c main_call0_v12 = W1 m ρ c (Proc.devRef .tc main_call0_v12) :=
  (W3_of_ne m ρ c main_call0_v12 (by decide)).trans (W2_of_ne m ρ c main_call0_v12 (by decide))

/-- Region 1's output: the padded activations. -/
theorem act_at3 (c : Dev nD) :
    V3 m ρ c main_call0_v14 = G1 (V2 m ρ c main_arg0) (V2 m ρ c main_call0_v13) :=
  (W3_arr m ρ c 2).trans (region1 (V2 m ρ) c)

/-- Region 0's output: the padded first layer. -/
theorem hid_at2 (c : Dev nD) :
    V2 m ρ c main_call0_v13 = G0 (V1 m ρ c main_arg1) (V1 m ρ c main_call0_v2) (V1 m ρ c main_call0_v7) :=
  (W2_arr m ρ c 3).trans (region0 (V1 m ρ) c)

/-! ## The result -/

/-- The result array after the run is the padded arrangement of the six argument arrays. -/
theorem result_eq (c : Dev nD) :
    (W4 m ρ c (Proc.devRef .tc main_v0) : S10000x128.Idx → EReal)
      = fun i => Cert.Gcn.kerOut (adj m c) (feat m c) (w0 m c) (b0 m c) (w1 m c) (b1 m c) (row i) (col i) := by
  have h4 : W4 m ρ c (Proc.devRef .tc main_v0) = (dat2 (V3 m ρ) c).arrAt 3 cfg2.N := W4_arr m ρ c 3
  rw [h4, region2 (V3 m ρ) c, adj_at3 m ρ c, act_at3 m ρ c, adj_at2 m ρ c, hid_at2 m ρ c, feat_at1 m ρ c, w1pad_at3 m ρ c]
  funext i
  obtain ⟨p, q, rfl⟩ : ∃ (p : Fin 10000) (q : Fin 128), i = ix2 p q := ⟨i 0, i 1, eq_ix2 i⟩
  unfold G2 G1 G0 Cert.Gcn.kerOut Cert.Gcn.actPad Cert.Gcn.hiddenPad
  simp only [w0pad_apply m ρ c, b0pad_apply m ρ c, w1pad_apply m ρ c]

end Cert.KernelIdeal.KernelValue

end
-- ==== Proof.RefValue.lean ====
/-
  The reference program's result read at a coordinate: its operations, one at a time, are the formula as it stands —
  a dense layer, the adjacency's contraction, the rectifier, a second dense layer, the adjacency's contraction again.
-/
import proofs.«143129_g24318104830749_cont_sun_m_1374_4_alg».proof.Proof.Gen.ReferenceIdeal.Read
import proofs.«143129_g24318104830749_cont_sun_m_1374_4_alg».proof.Proof.Spec
import Idealize.ShloMosaic.Lib.ValueIdx
import Idealize.ShloMosaic.PureOps.Ideal.Laws

noncomputable section

open scoped BigOperators

namespace Cert.ReferenceIdeal.RefValue

open Idealize.ShloMosaic Idealize.ShloMosaic.ValueIdx Cert.ReferenceIdeal Cert.ReferenceIdeal.Read

/-! ## The contractions' and broadcasts' index maps at a coordinate pair -/

private theorem lidx_v0_at (l : Fin 10000) (k : Fin 16) (d : Fin 128) : lidx_main_v0 (ix2 l k) d = ix2 l d :=
  funext fun a => Fin.ext (by match a with | ⟨0, _⟩ => rfl | ⟨1, _⟩ => rfl)

private theorem ridx_v0_at (l : Fin 10000) (k : Fin 16) (d : Fin 128) : ridx_main_v0 (ix2 l k) d = ix2 d k :=
  funext fun a => Fin.ext (by match a with | ⟨0, _⟩ => rfl | ⟨1, _⟩ => rfl)

private theorem idx_v1_v2_at (l : Fin 10000) (k : Fin 16) : idx_main_v1 (idx_main_v2 (ix2 l k)) = ix1 k :=
  funext fun a => Fin.ext (by match a with | ⟨0, _⟩ => rfl)

private theorem lidx_v4_at (l : Fin 10000) (k : Fin 16) (l' : Fin 10000) : lidx_main_v4 (ix2 l k) l' = ix2 l l' :=
  funext fun a => Fin.ext (by match a with | ⟨0, _⟩ => rfl | ⟨1, _⟩ => rfl)

private theorem ridx_v4_at (l : Fin 10000) (k : Fin 16) (l' : Fin 10000) : ridx_main_v4 (ix2 l k) l' = ix2 l' k :=
  funext fun a => Fin.ext (by match a with | ⟨0, _⟩ => rfl | ⟨1, _⟩ => rfl)

private theorem lidx_v6_at (l : Fin 10000) (j : Fin 128) (k : Fin 16) : lidx_main_v6 (ix2 l j) k = ix2 l k :=
  funext fun a => Fin.ext (by match a with | ⟨0, _⟩ => rfl | ⟨1, _⟩ => rfl)

private theorem ridx_v6_at (l : Fin 10000) (j : Fin 128) (k : Fin 16) : ridx_main_v6 (ix2 l j) k = ix2 k j :=
  funext fun a => Fin.ext (by match a with | ⟨0, _⟩ => rfl | ⟨1, _⟩ => rfl)

private theorem idx_v7_v8_at (l : Fin 10000) (j : Fin 128) : idx_main_v7 (idx_main_v8 (ix2 l j)) = ix1 j :=
  funext fun a => Fin.ext (by match a with | ⟨0, _⟩ => rfl)

private theorem lidx_v10_at (i : Fin 10000) (j : Fin 128) (l : Fin 10000) : lidx_main_v10 (ix2 i j) l = ix2 i l :=
  funext fun a => Fin.ext (by match a with | ⟨0, _⟩ => rfl | ⟨1, _⟩ => rfl)

private theorem ridx_v10_at (i : Fin 10000) (j : Fin 128) (l : Fin 10000) : ridx_main_v10 (ix2 i j) l = ix2 l j :=
  funext fun a => Fin.ext (by match a with | ⟨0, _⟩ => rfl | ⟨1, _⟩ => rfl)

/-! ## The stages at a coordinate pair -/

section Stages

variable (x0 : (⟨S10000x10000, .f32⟩ : BufTy).Contents (Elt Ideal)) (x1 : (⟨S10000x128, .f32⟩ : BufTy).Contents (Elt Ideal))
  (x2 : (⟨S128x16, .f32⟩ : BufTy).Contents (Elt Ideal)) (x3 : (⟨S16, .f32⟩ : BufTy).Contents (Elt Ideal))
  (x4 : (⟨S16x128, .f32⟩ : BufTy).Contents (Elt Ideal)) (x5 : (⟨S128, .f32⟩ : BufTy).Contents (Elt Ideal))

/-- The first dense layer: the contraction with the first matrix plus the broadcast bias. -/
private theorem v3_at (l : Fin 10000) (k : Fin 16) :
    val_main_v3 (F := Ideal) x1 x2 x3 (ix2 l k)
      = (∑ d : Fin 128, x1 (ix2 l d) * x2 (ix2 d k)) + x3 (ix1 k) := by
  rw [val_main_v3_apply, val_main_v0_apply, val_main_v2_apply, val_main_v1_apply, idx_v1_v2_at, Ideal.addf_def]
  simp only [lidx_v0_at, ridx_v0_at]

/-- The rectifier's zero operand. -/
private theorem zero_at (i : S10000x16.Idx) : val_main_call0_v0 (F := Ideal) i = 0 := by
  rw [val_main_call0_v0_apply, val_main_call0_cst_apply, Ideal.ofBits_def, Ideal.ofBits_zero_f32]

/-- The first graph convolution and its rectifier. -/
private theorem v5_at (l : Fin 10000) (k : Fin 16) :
    val_main_v5 (F := Ideal) x0 x1 x2 x3 (ix2 l k)
      = max (∑ l' : Fin 10000, x0 (ix2 l l') * ((∑ d : Fin 128, x1 (ix2 l' d) * x2 (ix2 d k)) + x3 (ix1 k))) 0 := by
  rw [val_main_v5_apply, val_main_v4_apply, zero_at, Ideal.maximumf_def]
  simp only [lidx_v4_at, ridx_v4_at, v3_at]

/-- The second dense layer. -/
private theorem v9_at (l : Fin 10000) (j : Fin 128) :
    val_main_v9 (F := Ideal) x0 x1 x2 x3 x4 x5 (ix2 l j)
      = (∑ k : Fin 16, max (∑ l' : Fin 10000, x0 (ix2 l l') * ((∑ d : Fin 128, x1 (ix2 l' d) * x2 (ix2 d k)) + x3 (ix1 k))) 0
            * x4 (ix2 k j)) + x5 (ix1 j) := by
  rw [val_main_v9_apply, val_main_v6_apply, val_main_v8_apply, val_main_v7_apply, idx_v7_v8_at, Ideal.addf_def]
  simp only [lidx_v6_at, ridx_v6_at, v5_at]

end Stages

/-- Entry (i, j) of the reference's result is the formula's, of the six arrays read by coordinates. -/
theorem ref_value (x0 : (⟨S10000x10000, .f32⟩ : BufTy).Contents (Elt Ideal)) (x1 : (⟨S10000x128, .f32⟩ : BufTy).Contents (Elt Ideal))
    (x2 : (⟨S128x16, .f32⟩ : BufTy).Contents (Elt Ideal)) (x3 : (⟨S16, .f32⟩ : BufTy).Contents (Elt Ideal))
    (x4 : (⟨S16x128, .f32⟩ : BufTy).Contents (Elt Ideal)) (x5 : (⟨S128, .f32⟩ : BufTy).Contents (Elt Ideal))
    (i : Fin 10000) (j : Fin 128) :
    val_main_v10 (F := Ideal) x0 x1 x2 x3 x4 x5 (ix2 i j)
      = Cert.Gcn.refOut (fun i l => x0 (ix2 i l)) (fun l d => x1 (ix2 l d)) (fun d k => x2 (ix2 d k)) (fun k => x3 (ix1 k))
          (fun k j => x4 (ix2 k j)) (fun j => x5 (ix1 j)) i j := by
  unfold Cert.Gcn.refOut Cert.Gcn.act Cert.Gcn.hidden
  rw [val_main_v10_apply]
  simp only [lidx_v10_at, ridx_v10_at, v9_at]

end Cert.ReferenceIdeal.RefValue

end
-- ==== Proof.Finite.lean ====
/-
  The precondition read: it is the conjunction, over the six argument arrays, of "every entry's absolute value is
  below +∞"; on the extended reals an entry with that property is a real number.
-/
import proofs.«143129_g24318104830749_cont_sun_m_1374_4_alg».proof.Pre_finite_inputs
import Idealize.ShloMosaic.Lib.ReduceAll
import Idealize.ShloMosaic.Lib.ValueIdx

noncomputable section

namespace Cert.Gcn.Finite

open Idealize.ShloMosaic Idealize.ShloMosaic.ValueIdx Cert.Pre_finite_inputs

/-- On the extended reals `max x (-x) < ⊤` leaves only the real numbers: at `⊥` the maximum is `-⊥ = ⊤`, and at `⊤`
    it is `⊤` itself. -/
private theorem real_of_abs_lt_top (x : EReal) (h : max x (-x) < ⊤) : ∃ r : ℝ, x = (r : EReal) := by
  induction x using EReal.rec with
  | bot => simp at h
  | coe r => exact ⟨r, rfl⟩
  | top => simp at h

/-- The f32 pattern `0x7F800000` denotes `+∞`. -/
private theorem ofBits_inf : Ideal.ofBits .f32 0x7F800000#32 = ⊤ := by simp [Ideal.ofBits, Ideal.ieee]

/-- One entry: if the comparison `|x| < +∞` answers 1 then `x` is real. The absolute value is `max x (-x)` and the
    comparison is the decision of the strict order, so the answer 1 is the inequality `max x (-x) < ⊤`. -/
private theorem real_of_cmp (x : Ideal .f32)
    (h : FloatOps.cmpf .olt (FloatOps.hostAbsf x) (FloatOps.ofBits (F := Ideal) .f32 0x7F800000#32) = 1#1) :
    ∃ r : ℝ, x = (r : EReal) := by
  have h' : Ideal.cmp .olt (max (x : EReal) (-(x : EReal))) (Ideal.ofBits .f32 0x7F800000#32) = 1#1 := h
  rw [ofBits_inf] at h'
  unfold Ideal.cmp at h'
  by_cases hlt : max (x : EReal) (-(x : EReal)) < ⊤
  · exact real_of_abs_lt_top x hlt
  · simp [hlt] at h'

/-- One array, of any shape: if the reduction by `and` over all axes of the entrywise tests `|x i| < +∞` answers 1, then
    every test answered 1 (the result has a single index, so every entry reduces into it), hence every entry is real. -/
private theorem real_of_all {s : Shape} {axes : List (Fin s.rank)} (x : FVec Ideal s .f32)
    (hb : S_.BroadcastsInDim s (![] : Fin 0 → Fin s.rank)) (hr : s.ReducesTo axes S_) (hu : 0 < S_.numel)
    (h : Host.reduce IntOp.andi
          (cmpf .olt (Host.absf x) (broadcastInDim s ![] hb (constant (F := Ideal) S_ .f32 0x7F800000#32)))
          (constantI S_ 1 1#1) hr hu ix0 = 1#1) :
    ∀ i, ∃ r : ℝ, x i = (r : EReal) := by
  intro i
  haveI : Subsingleton S_.Idx := ⟨fun a b => funext fun d => d.elim0⟩
  exact real_of_cmp (x i) (Host.reduce_andi_all _ _ hr hu ix0 h i)

variable [Cert.Pre_finite_inputs.Facts]

/-- Under the precondition every entry of every argument array is a real number. -/
theorem real_of_pre (x0 : FVec Ideal S10000x10000 .f32) (x1 : FVec Ideal S10000x128 .f32) (x2 : FVec Ideal S128x16 .f32)
    (x3 : FVec Ideal S16 .f32) (x4 : FVec Ideal S16x128 .f32) (x5 : FVec Ideal S128 .f32)
    (hpre : Cert.Pre_finite_inputs.fn (F := Ideal) x0 x1 x2 x3 x4 x5 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x4 i = (r : EReal)) ∧ (∀ i, ∃ r : ℝ, x5 i = (r : EReal)) := by
  -- the predicate's one word is 1; unfolded, it is the `and` of the six arrays' reductions, nested to the left
  have h := congrFun hpre ix0
  dsimp only [Cert.Pre_finite_inputs.fn, Cert.Pre_finite_inputs.fn_part1, andi] at h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨real_of_all x0 _ _ _ h0, real_of_all x1 _ _ _ h1, real_of_all x2 _ _ _ h2, real_of_all x3 _ _ _ h3,
    real_of_all x4 _ _ _ h4, real_of_all x5 _ _ _ h5⟩

end Cert.Gcn.Finite

end
-- ==== Proof.Law.lean ====
/-
  For real entries the padded arrangement computes the formula as it stands: the zero columns contribute nothing, the
  column of ones turns the second layer's row 16 into (row sum of a) × b1, and distributing `a` over the second layer and
  exchanging the two sums gives the rest.
-/
import proofs.«143129_g24318104830749_cont_sun_m_1374_4_alg».proof.Proof.Spec
import Mathlib.Data.EReal.Basic
import Mathlib.Order.MinMax
import Mathlib.Algebra.BigOperators.Fin
import Mathlib.Algebra.BigOperators.Ring.Finset
import Mathlib.Tactic.Ring

noncomputable section

open scoped BigOperators

namespace Cert.Gcn

/-! ## The embedding of the reals commutes with finite sums and with max -/

/-- The embedding of the reals into the extended reals is additive, hence commutes with finite sums. -/
private theorem coe_sum {ι : Type} (s : Finset ι) (f : ι → ℝ) :
    ((∑ i ∈ s, f i : ℝ) : EReal) = ∑ i ∈ s, ((f i : ℝ) : EReal) := by
  classical
  induction s using Finset.induction_on with
  | empty => simp
  | insert x s hx ih => rw [Finset.sum_insert hx, Finset.sum_insert hx, EReal.coe_add, ih]

/-- The embedding is monotone, hence commutes with max. -/
private theorem coe_max (x y : ℝ) : ((max x y : ℝ) : EReal) = max (x : EReal) (y : EReal) :=
  EReal.coe_strictMono.monotone.map_max

/-! ## Real twins of the two arrangements -/

section Twins

variable (a : Fin 10000 → Fin 10000 → ℝ) (h : Fin 10000 → Fin 128 → ℝ)
  (W0 : Fin 128 → Fin 16 → ℝ) (b0 : Fin 16 → ℝ) (W1 : Fin 16 → Fin 128 → ℝ) (b1 : Fin 128 → ℝ)

private def hiddenR (l : Fin 10000) (k : Fin 16) : ℝ := (∑ d : Fin 128, h l d * W0 d k) + b0 k

private def actR (l : Fin 10000) (k : Fin 16) : ℝ := max (∑ l' : Fin 10000, a l l' * hiddenR h W0 b0 l' k) 0

private def refOutR (i : Fin 10000) (j : Fin 128) : ℝ :=
  ∑ l : Fin 10000, a i l * ((∑ k : Fin 16, actR a h W0 b0 l k * W1 k j) + b1 j)

private def W0padR (d : Fin 128) (k : Fin 32) : ℝ := if hk : k.val < 16 then W0 d ⟨k.val, hk⟩ else 0

private def b0padR (k : Fin 32) : ℝ := if hk : k.val < 16 then b0 ⟨k.val, hk⟩ else 0

private def W1padR (k : Fin 32) (j : Fin 128) : ℝ :=
  if hk : k.val < 16 then W1 ⟨k.val, hk⟩ j else if k.val = 16 then b1 j else 0

private def hiddenPadR (l : Fin 10000) (k : Fin 32) : ℝ := (∑ d : Fin 128, h l d * W0padR W0 d k) + b0padR b0 k

private def actPadR (l : Fin 10000) (k : Fin 32) : ℝ :=
  if k.val = 16 then 1 else max (∑ l' : Fin 10000, a l l' * hiddenPadR h W0 b0 l' k) 0

private def kerOutR (i : Fin 10000) (j : Fin 128) : ℝ :=
  ∑ k : Fin 32, (∑ l : Fin 10000, a i l * actPadR a h W0 b0 l k) * W1padR W1 b1 k j

/-! ## Each stage over the extended reals is the embedding of its real twin -/

private theorem hidden_coe (l : Fin 10000) (k : Fin 16) :
    hidden (fun l d => ((h l d : ℝ) : EReal)) (fun d k => ((W0 d k : ℝ) : EReal)) (fun k => ((b0 k : ℝ) : EReal)) l k
      = ((hiddenR h W0 b0 l k : ℝ) : EReal) := by
  unfold hidden hiddenR
  rw [EReal.coe_add, coe_sum]
  simp only [EReal.coe_mul]

private theorem act_coe (l : Fin 10000) (k : Fin 16) :
    act (fun i l => ((a i l : ℝ) : EReal)) (fun l d => ((h l d : ℝ) : EReal)) (fun d k => ((W0 d k : ℝ) : EReal))
        (fun k => ((b0 k : ℝ) : EReal)) l k
      = ((actR a h W0 b0 l k : ℝ) : EReal) := by
  unfold act actR
  rw [coe_max, coe_sum, EReal.coe_zero]
  simp only [hidden_coe, EReal.coe_mul]

private theorem refOut_coe (i : Fin 10000) (j : Fin 128) :
    refOut (fun i l => ((a i l : ℝ) : EReal)) (fun l d => ((h l d : ℝ) : EReal)) (fun d k => ((W0 d k : ℝ) : EReal))
        (fun k => ((b0 k : ℝ) : EReal)) (fun k j => ((W1 k j : ℝ) : EReal)) (fun j => ((b1 j : ℝ) : EReal)) i j
      = ((refOutR a h W0 b0 W1 b1 i j : ℝ) : EReal) := by
  unfold refOut refOutR
  rw [coe_sum]
  refine Finset.sum_congr rfl fun l _ => ?_
  rw [EReal.coe_mul, EReal.coe_add, coe_sum]
  simp only [act_coe, EReal.coe_mul]

private theorem W0pad_coe (d : Fin 128) (k : Fin 32) :
    W0pad (fun d k => ((W0 d k : ℝ) : EReal)) d k = ((W0padR W0 d k : ℝ) : EReal) := by
  unfold W0pad W0padR
  split_ifs
  · rfl
  · exact EReal.coe_zero.symm

private theorem b0pad_coe (k : Fin 32) :
    b0pad (fun k => ((b0 k : ℝ) : EReal)) k = ((b0padR b0 k : ℝ) : EReal) := by
  unfold b0pad b0padR
  split_ifs
  · rfl
  · exact EReal.coe_zero.symm

private theorem W1pad_coe (k : Fin 32) (j : Fin 128) :
    W1pad (fun k j => ((W1 k j : ℝ) : EReal)) (fun j => ((b1 j : ℝ) : EReal)) k j
      = ((W1padR W1 b1 k j : ℝ) : EReal) := by
  unfold W1pad W1padR
  split_ifs
  · rfl
  · rfl
  · exact EReal.coe_zero.symm

private theorem hiddenPad_coe (l : Fin 10000) (k : Fin 32) :
    hiddenPad (fun l d => ((h l d : ℝ) : EReal)) (fun d k => ((W0 d k : ℝ) : EReal)) (fun k => ((b0 k : ℝ) : EReal)) l k
      = ((hiddenPadR h W0 b0 l k : ℝ) : EReal) := by
  unfold hiddenPad hiddenPadR
  rw [EReal.coe_add, coe_sum, b0pad_coe]
  simp only [W0pad_coe, EReal.coe_mul]

private theorem actPad_coe (l : Fin 10000) (k : Fin 32) :
    actPad (fun i l => ((a i l : ℝ) : EReal)) (fun l d => ((h l d : ℝ) : EReal)) (fun d k => ((W0 d k : ℝ) : EReal))
        (fun k => ((b0 k : ℝ) : EReal)) l k
      = ((actPadR a h W0 b0 l k : ℝ) : EReal) := by
  unfold actPad actPadR
  split_ifs
  · exact EReal.coe_one.symm
  · rw [coe_max, coe_sum, EReal.coe_zero]
    simp only [hiddenPad_coe, EReal.coe_mul]

private theorem kerOut_coe (i : Fin 10000) (j : Fin 128) :
    kerOut (fun i l => ((a i l : ℝ) : EReal)) (fun l d => ((h l d : ℝ) : EReal)) (fun d k => ((W0 d k : ℝ) : EReal))
        (fun k => ((b0 k : ℝ) : EReal)) (fun k j => ((W1 k j : ℝ) : EReal)) (fun j => ((b1 j : ℝ) : EReal)) i j
      = ((kerOutR a h W0 b0 W1 b1 i j : ℝ) : EReal) := by
  unfold kerOut kerOutR
  rw [coe_sum]
  refine Finset.sum_congr rfl fun k _ => ?_
  rw [EReal.coe_mul, coe_sum, W1pad_coe]
  simp only [actPad_coe, EReal.coe_mul]

/-! ## The identity over the reals -/

/-- On the first sixteen columns the padded first layer is the first layer. -/
private theorem hiddenPadR_castAdd (l : Fin 10000) (k : Fin 16) :
    hiddenPadR h W0 b0 l (Fin.castAdd 16 k) = hiddenR h W0 b0 l k := by
  have hk : (Fin.castAdd 16 k).val < 16 := k.isLt
  unfold hiddenPadR hiddenR W0padR b0padR
  simp only [dif_pos hk]
  rfl

/-- On the first sixteen columns the padded activations are the activations. -/
private theorem actPadR_castAdd (l : Fin 10000) (k : Fin 16) :
    actPadR a h W0 b0 l (Fin.castAdd 16 k) = actR a h W0 b0 l k := by
  have hk : ¬ (Fin.castAdd 16 k).val = 16 := Nat.ne_of_lt k.isLt
  unfold actPadR actR
  rw [if_neg hk]
  simp only [hiddenPadR_castAdd]

/-- On the first sixteen rows the padded second layer is the second layer. -/
private theorem W1padR_castAdd (k : Fin 16) (j : Fin 128) :
    W1padR W1 b1 (Fin.castAdd 16 k) j = W1 k j := by
  have hk : (Fin.castAdd 16 k).val < 16 := k.isLt
  unfold W1padR
  rw [dif_pos hk]
  rfl

/-- Row 16 of the padded second layer is the bias; the rows below it are zero. -/
private theorem W1padR_natAdd (k : Fin 16) (j : Fin 128) :
    W1padR W1 b1 (Fin.natAdd 16 k) j = if k.val = 0 then b1 j else 0 := by
  have hk : ¬ (Fin.natAdd 16 k).val < 16 := by simp [Fin.natAdd]
  unfold W1padR
  rw [dif_neg hk]
  have : ((Fin.natAdd 16 k).val = 16) ↔ (k.val = 0) := by simp [Fin.natAdd]
  simp only [this]

/-- Column 16 of the padded activations is the constant one. -/
private theorem actPadR_natAdd_zero (l : Fin 10000) :
    actPadR a h W0 b0 l (Fin.natAdd 16 (0 : Fin 16)) = 1 := by
  unfold actPadR
  rw [if_pos (by simp [Fin.natAdd])]

/-- The sixteen appended columns contribute (row sum of a) × b1. -/
private theorem appended_sum (i : Fin 10000) (j : Fin 128) :
    (∑ k : Fin 16, (∑ l : Fin 10000, a i l * actPadR a h W0 b0 l (Fin.natAdd 16 k)) * W1padR W1 b1 (Fin.natAdd 16 k) j)
      = (∑ l : Fin 10000, a i l) * b1 j := by
  rw [Finset.sum_eq_single (0 : Fin 16)
    (fun k _ hk => by
      have hk0 : ¬ k.val = 0 := fun h0 => hk (Fin.ext h0)
      rw [W1padR_natAdd, if_neg hk0, mul_zero])
    (fun h0 => absurd (Finset.mem_univ _) h0)]
  rw [W1padR_natAdd, if_pos (Fin.val_zero 16)]
  simp only [actPadR_natAdd_zero, mul_one]

/-- The sixteen real columns contribute the second layer's matrix part. -/
private theorem real_sum (i : Fin 10000) (j : Fin 128) :
    (∑ k : Fin 16, (∑ l : Fin 10000, a i l * actPadR a h W0 b0 l (Fin.castAdd 16 k)) * W1padR W1 b1 (Fin.castAdd 16 k) j)
      = ∑ l : Fin 10000, a i l * ∑ k : Fin 16, actR a h W0 b0 l k * W1 k j := by
  simp only [actPadR_castAdd, W1padR_castAdd, Finset.mul_sum, Finset.sum_mul]
  rw [Finset.sum_comm]
  refine Finset.sum_congr rfl fun l _ => Finset.sum_congr rfl fun k _ => ?_
  ring

private theorem kerOutR_eq_refOutR (i : Fin 10000) (j : Fin 128) :
    kerOutR a h W0 b0 W1 b1 i j = refOutR a h W0 b0 W1 b1 i j := by
  unfold kerOutR refOutR
  -- split the thirty-two columns into the sixteen real ones and the sixteen appended ones
  rw [show (∑ k : Fin 32, (∑ l : Fin 10000, a i l * actPadR a h W0 b0 l k) * W1padR W1 b1 k j)
        = ∑ k : Fin (16 + 16), (∑ l : Fin 10000, a i l * actPadR a h W0 b0 l k) * W1padR W1 b1 k j from rfl,
    Fin.sum_univ_add, real_sum, appended_sum]
  -- distribute the row of a over the second layer
  simp only [mul_add, Finset.sum_add_distrib, Finset.sum_mul]

end Twins

/-- The padded arrangement and the formula agree when every entry is a real number. -/
theorem kerOut_eq_refOut (a : Fin 10000 → Fin 10000 → ℝ) (h : Fin 10000 → Fin 128 → ℝ)
    (W0 : Fin 128 → Fin 16 → ℝ) (b0 : Fin 16 → ℝ) (W1 : Fin 16 → Fin 128 → ℝ) (b1 : Fin 128 → ℝ) :
    kerOut (fun i l => ((a i l : ℝ) : EReal)) (fun l d => ((h l d : ℝ) : EReal)) (fun d k => ((W0 d k : ℝ) : EReal))
        (fun k => ((b0 k : ℝ) : EReal)) (fun k j => ((W1 k j : ℝ) : EReal)) (fun j => ((b1 j : ℝ) : EReal))
      = refOut (fun i l => ((a i l : ℝ) : EReal)) (fun l d => ((h l d : ℝ) : EReal)) (fun d k => ((W0 d k : ℝ) : EReal))
        (fun k => ((b0 k : ℝ) : EReal)) (fun k j => ((W1 k j : ℝ) : EReal)) (fun j => ((b1 j : ℝ) : EReal)) := by
  funext i j
  rw [kerOut_coe, refOut_coe, kerOutR_eq_refOutR]

end Cert.Gcn

end
-- ==== Proof.lean ====
/-
  A two-layer graph convolution, out = a · (relu (a · (h · W0 + b0)) · W1 + b1), computed by three kernel regions on a
  hidden width padded from 16 to 32: the padding columns are zero, one of them is set to the constant one after the
  rectifier so that the second layer's bias rides through the second contraction with `a` as one more row of the
  second layer's matrix, and the contraction with `a` is done before the second layer instead of after it.
  On the extended reals, for finite inputs, this is the reference's value: the zero columns add nothing, the column
  of ones gives (row sum of a) × b1, and the rest is distributivity and an exchange of two finite sums
  (Proof/Law.lean; the precondition supplies the real entries, Proof/Finite.lean).
  The kernel's three frames and the run of its three regions are generated; read off them by hand are the contents of
  each region's output array (Proof/RegionValue.lean over Proof/Payload.lean), the padded weights the host stretch
  writes (Proof/PadRead.lean) and their composition (Proof/KernelValue.lean); the reference's result is read
  operation by operation (Proof/RefValue.lean). Nothing was rewritten when the kernel was idealized, so the
  idealization conjunct is trivial.
-/
import proofs.«143129_g24318104830749_cont_sun_m_1374_4_alg».proof.Defs
import proofs.«143129_g24318104830749_cont_sun_m_1374_4_alg».proof.Proof.Gen.Kernel
import proofs.«143129_g24318104830749_cont_sun_m_1374_4_alg».proof.Proof.Gen.Kernel.Skeleton
import proofs.«143129_g24318104830749_cont_sun_m_1374_4_alg».proof.Proof.Gen.Kernel.Launch
import proofs.«143129_g24318104830749_cont_sun_m_1374_4_alg».proof.Proof.Gen.Kernel.Points
import proofs.«143129_g24318104830749_cont_sun_m_1374_4_alg».proof.Proof.Gen.Kernel.Frame
import proofs.«143129_g24318104830749_cont_sun_m_1374_4_alg».proof.Proof.Gen.KernelIdeal
import proofs.«143129_g24318104830749_cont_sun_m_1374_4_alg».proof.Proof.Gen.KernelIdeal.Skeleton
import proofs.«143129_g24318104830749_cont_sun_m_1374_4_alg».proof.Proof.Gen.KernelIdeal.Launch
import proofs.«143129_g24318104830749_cont_sun_m_1374_4_alg».proof.Proof.Gen.KernelIdeal.Points
import proofs.«143129_g24318104830749_cont_sun_m_1374_4_alg».proof.Proof.Gen.KernelIdeal.Frame
import proofs.«143129_g24318104830749_cont_sun_m_1374_4_alg».proof.Proof.Gen.ReferenceIdeal
import proofs.«143129_g24318104830749_cont_sun_m_1374_4_alg».proof.Proof.Gen.Pre_finite_inputs
import proofs.«143129_g24318104830749_cont_sun_m_1374_4_alg».proof.Proof.Gen.ReferenceIdeal.Run
import proofs.«143129_g24318104830749_cont_sun_m_1374_4_alg».proof.Proof.Gen.ReferenceIdeal.Read
import proofs.«143129_g24318104830749_cont_sun_m_1374_4_alg».proof.Proof.ResultRun
import proofs.«143129_g24318104830749_cont_sun_m_1374_4_alg».proof.Proof.KernelValue
import proofs.«143129_g24318104830749_cont_sun_m_1374_4_alg».proof.Proof.RefValue
import proofs.«143129_g24318104830749_cont_sun_m_1374_4_alg».proof.Proof.Finite
import proofs.«143129_g24318104830749_cont_sun_m_1374_4_alg».proof.Proof.Law
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level kernel runs and leaves its arguments: the generated frame. -/
theorem frame_k : Cert.frame_Kernel (hKernel := Cert.Kernel.Gen.facts) (hPre_finite_inputs := Cert.Pre_finite_inputs.Gen.facts) :=
  fun m ρ _ => Cert.Kernel.Gen.frame m ρ

/-- The idealized kernel runs and leaves its arguments: the generated frame. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments: its generated run, the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs end with the padded arrangement's value of the arguments: the kernel by its three
    regions composed, the reference because for the real entries the precondition gives, its formula is that value. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => fun i => Cert.Gcn.kerOut (Cert.KernelIdeal.KernelValue.adj m c) (Cert.KernelIdeal.KernelValue.feat m c)
      (Cert.KernelIdeal.KernelValue.w0 m c) (Cert.KernelIdeal.KernelValue.b0 m c) (Cert.KernelIdeal.KernelValue.w1 m c)
      (Cert.KernelIdeal.KernelValue.b1 m c) (Cert.KernelIdeal.RegionValue.row i) (Cert.KernelIdeal.RegionValue.col i), ?_, ?_⟩
  · exact (θ_run Cert.KernelIdeal.defs _ _).mono
      (fun r h c => ⟨(h c).1.trans (Cert.KernelIdeal.KernelValue.result_eq m ρ c), (h c).2⟩)
      (Cert.KernelIdeal.ResultRun.run_main m ρ)
  · refine (θ_run Cert.ReferenceIdeal.defs _ _).mono (fun r h c => ⟨(h c).1.trans ?_, (h c).2⟩)
      (Cert.ReferenceIdeal.Value.run (F := Ideal) m' ρ')
    obtain ⟨g0, g1, g2, g3, g4, g5⟩ := hagree c
    rw [g0, g1, g2, g3, g4, g5]
    obtain ⟨r0, r1, r2, r3, r4, r5⟩ := Cert.Gcn.Finite.real_of_pre _ _ _ _ _ _ (hpre c)
    choose a ha using r0
    choose f hf using r1
    choose u0 hu0 using r2
    choose v0 hv0 using r3
    choose u1 hu1 using r4
    choose v1 hv1 using r5
    funext i
    obtain ⟨p, q, rfl⟩ : ∃ (p : Fin 10000) (q : Fin 128), i = ix2 p q := ⟨i 0, i 1, eq_ix2 i⟩
    refine (Cert.ReferenceIdeal.RefValue.ref_value _ _ _ _ _ _ p q).trans ?_
    have e0 : Cert.KernelIdeal.KernelValue.adj m c = fun i l => ((a (ix2 i l) : ℝ) : EReal) := funext fun i => funext fun l => ha _
    have e1 : Cert.KernelIdeal.KernelValue.feat m c = fun l d => ((f (ix2 l d) : ℝ) : EReal) := funext fun l => funext fun d => hf _
    have e2 : Cert.KernelIdeal.KernelValue.w0 m c = fun d k => ((u0 (ix2 d k) : ℝ) : EReal) := funext fun d => funext fun k => hu0 _
    have e3 : Cert.KernelIdeal.KernelValue.b0 m c = fun k => ((v0 (ix1 k) : ℝ) : EReal) := funext fun k => hv0 _
    have e4 : Cert.KernelIdeal.KernelValue.w1 m c = fun k j => ((u1 (ix2 k j) : ℝ) : EReal) := funext fun k => funext fun j => hu1 _
    have e5 : Cert.KernelIdeal.KernelValue.b1 m c = fun j => ((v1 (ix1 j) : ℝ) : EReal) := funext fun j => hv1 _
    show Cert.Gcn.refOut (Cert.KernelIdeal.KernelValue.adj m c) (Cert.KernelIdeal.KernelValue.feat m c)
        (Cert.KernelIdeal.KernelValue.w0 m c) (Cert.KernelIdeal.KernelValue.b0 m c) (Cert.KernelIdeal.KernelValue.w1 m c)
        (Cert.KernelIdeal.KernelValue.b1 m c) p q
      = Cert.Gcn.kerOut (Cert.KernelIdeal.KernelValue.adj m c) (Cert.KernelIdeal.KernelValue.feat m c)
        (Cert.KernelIdeal.KernelValue.w0 m c) (Cert.KernelIdeal.KernelValue.b0 m c) (Cert.KernelIdeal.KernelValue.w1 m c)
        (Cert.KernelIdeal.KernelValue.b1 m c) p q
    rw [e0, e1, e2, e3, e4, e5]
    exact (congrFun (congrFun (Cert.Gcn.kerOut_eq_refOut (fun i l => a (ix2 i l)) (fun l d => f (ix2 l d)) (fun d k => u0 (ix2 d k))
      (fun k => v0 (ix1 k)) (fun k j => u1 (ix2 k j)) (fun j => v1 (ix1 j))) p) q).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
